-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S1 .f32) (main_arg14 : FVec F S64x1 .f32) (main_arg15 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64x64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_arg14 main_arg15 main_v48 main_v49 main_v50

def fn_part1 {F : FTy → Type} [FloatOps F] (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x3 .f32) (main_arg1 : IVec S2x800000 32) (main_arg2 : IVec S50000 32) (main_arg3 : FVec F S3x64 .f32) (main_arg4 : FVec F S3x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S1x64 : Shape := ⟨2, ![1, 64]⟩
abbrev S50000x64 : Shape := ⟨2, ![50000, 64]⟩
abbrev S5000x3 : Shape := ⟨2, ![5000, 3]⟩
abbrev S5000x64 : Shape := ⟨2, ![5000, 64]⟩
abbrev S800000x64 : Shape := ⟨2, ![800000, 64]⟩
abbrev S50000x1 : Shape := ⟨2, ![50000, 1]⟩
abbrev S5000x1 : Shape := ⟨2, ![5000, 1]⟩
abbrev S1x1 : Shape := ⟨2, ![1, 1]⟩

abbrev nBuf : Space → Nat
  | .hbm => 87
  | .vmem => 32
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S50000, .i32⟩
  | .hbm, ⟨3, _⟩ => ⟨S3x64, .f32⟩
  | .hbm, ⟨4, _⟩ => ⟨S3x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x3, .f32⟩
  | .hbm, ⟨29, _⟩ => ⟨S_, .f32⟩
  | .hbm, ⟨30, _⟩ => ⟨S50000x3, .f32⟩
  | .hbm, ⟨31, _⟩ => ⟨S800000x1, .i32⟩
  | .hbm, ⟨32, _⟩ => ⟨S50000x3, .f32⟩
  | .hbm, ⟨33, _⟩ => ⟨S1x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x1, .i32⟩
  | .hbm, ⟨66, _⟩ => ⟨S64x64, .f32⟩
  | .hbm, ⟨67, _⟩ => ⟨S_, .f32⟩
  | .hbm, ⟨68, _⟩ => ⟨S50000, .f32⟩
  | .hbm, ⟨69, _⟩ => ⟨S_, .f32⟩
  | .hbm, ⟨70, _⟩ => ⟨S64, .f32⟩
  | .hbm, ⟨71, _⟩ => ⟨S50000x1, .i32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S64x1, .f32⟩
  | .hbm, ⟨77, _⟩ => ⟨S64x64, .f32⟩
  | .hbm, ⟨78, _⟩ => ⟨S64x64, .f32⟩
  | .hbm, ⟨79, _⟩ => ⟨S64x1, .f32⟩
  | .hbm, ⟨80, _⟩ => ⟨S1x1, .f32⟩
  | .hbm, ⟨81, _⟩ => ⟨S64x1, .f32⟩
  | .hbm, ⟨82, _⟩ => ⟨S64x1, .f32⟩
  | .hbm, ⟨83, _⟩ => ⟨S64x1, .f32⟩
  | .hbm, ⟨84, _⟩ => ⟨S1x1, .f32⟩
  | .hbm, ⟨85, _⟩ => ⟨S64x1, .f32⟩
  | .hbm, ⟨86, _⟩ => ⟨S64x1, .f32⟩
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S3x64, .f32⟩
  | .local _ .vmem, ⟨5, _⟩ => ⟨S3x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x1, .i32⟩
  | .local _ .vmem, ⟨30, _⟩ => ⟨S5000x1, .i32⟩
  | .local _ .vmem, ⟨31, _⟩ => ⟨S64x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x3 : S_.BroadcastsInDim S50000x3 (![] : Fin 0 → Fin S50000x3.rank)
  shapeCasts_S64_S1x64 : S64.ShapeCasts S1x64
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x64_S64x64 : S64x64.ShapeCasts S64x64
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S5000x3_S3x64_S5000x64_1_0_0_1_n_n_wf : DotDims.WF S5000x3 S3x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S5000x64_S64x64_0_0_1_1_n_n_wf : DotDims.WF S5000x64 S5000x64 S64x64 [0] [0] [1] [1] [] []
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S50000x3.size a
  hwx0_1 : ∀ i : grid0.Coords, EltTy.bits .f32 = 32 ∨ (Rect.block (s := S50000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v13) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S64x64.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000 : Shape := ⟨1, ![50000]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S50000x64 : Shape := ⟨2, ![50000, 64]⟩
abbrev S1x64 : Shape := ⟨2, ![1, 64]⟩
abbrev S800000x64 : Shape := ⟨2, ![800000, 64]⟩
abbrev S50000x1 : Shape := ⟨2, ![50000, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S2x800000, .i32⟩
  | .hbm, ⟨2, _⟩ => ⟨S50000, .i32⟩
  | .hbm, ⟨3, _⟩ => ⟨S3x64, .f32⟩
  | .hbm, ⟨4, _⟩ => ⟨S3x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x1, .f32⟩
  | .hbm, ⟨15, _⟩ => ⟨S1, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x3, .f32⟩
  | .hbm, ⟨29, _⟩ => ⟨S_, .f32⟩
  | .hbm, ⟨30, _⟩ => ⟨S50000x3, .f32⟩
  | .hbm, ⟨31, _⟩ => ⟨S800000x1, .i32⟩
  | .hbm, ⟨32, _⟩ => ⟨S50000x3, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | .hbm, ⟨83, _⟩ => ⟨S_, .f32⟩
  | .hbm, ⟨84, _⟩ => ⟨S64x64, .f32⟩
  | .hbm, ⟨85, _⟩ => ⟨S50000x1, .i32⟩
  | .hbm, ⟨86, _⟩ => ⟨S64x64, .f32⟩
  | .hbm, ⟨87, _⟩ => ⟨S_, .f32⟩
  | .hbm, ⟨88, _⟩ => ⟨S50000, .f32⟩
  | .hbm, ⟨89, _⟩ => ⟨S_, .f32⟩
  | .hbm, ⟨90, _⟩ => ⟨S64, .f32⟩
  | .hbm, ⟨91, _⟩ => ⟨S50000x1, .i32⟩
  | .hbm, ⟨92, _⟩ => ⟨S64, .f32⟩
  | .hbm, ⟨93, _⟩ => ⟨S_, .f32⟩
  | .hbm, ⟨94, _⟩ => ⟨S64, .f32⟩
  | .hbm, ⟨95, _⟩ => ⟨S64, .f32⟩
  | .hbm, ⟨96, _⟩ => ⟨S64x1, .f32⟩
  | .hbm, ⟨97, _⟩ => ⟨S64x64, .f32⟩
  | .hbm, ⟨98, _⟩ => ⟨S64x64, .f32⟩
  | .hbm, ⟨99, _⟩ => ⟨S64x1, .f32⟩
  | .hbm, ⟨100, _⟩ => ⟨S1x1, .f32⟩
  | .hbm, ⟨101, _⟩ => ⟨S64x1, .f32⟩
  | .hbm, ⟨102, _⟩ => ⟨S64x1, .f32⟩
  | .hbm, ⟨103, _⟩ => ⟨S64x1, .f32⟩
  | .hbm, ⟨104, _⟩ => ⟨S1x1, .f32⟩
  | .hbm, ⟨105, _⟩ => ⟨S64x1, .f32⟩
  | .hbm, ⟨106, _⟩ => ⟨S64x1, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call0_cst : Ref sig .tc := ⟨.hbm, 39, rfl⟩
abbrev main_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_7 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x3 : S_.BroadcastsInDim S50000x3 (![] : Fin 0 → Fin S50000x3.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S50000x3_S3x64_S50000x64_1_0_0_1_n_n_wf : DotDims.WF S50000x3 S3x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x1_S64x1_1_0_0_1_n_n_wf : DotDims.WF S64x64 S64x1 S64x1 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RefStages.lean ====
/-
  The reference program read back: its run (every execution ends with each result at the composed term of the
  arguments) and that term one operation at a time, each stage a function of the arguments it depends on. The modules
  that compare the two programs are written against these stage functions.
-/
import proofs.«418541_j1769526526179_1_alg».proof.Proof.Gen.ReferenceIdeal.Run
import proofs.«418541_j1769526526179_1_alg».proof.Proof.Gen.ReferenceIdeal.Read
-- ==== Proof.Spec.lean ====
/-
  The mathematics both programs compute, stated once over extended reals and literal shapes.

  A graph-convolution layer over 50000 nodes sends the neighbour sums `agg` and the node features `x`
  (each [50000, K]) through two weight matrices (each [K, 64]) and a bias row ([1, 64]):
    conv agg x wrel wroot b (n, j) = (∑ₖ agg (n, k) · wrel (k, j)) + (∑ₖ x (n, k) · wroot (k, j)) + b (0, j),
  and `convRelu` is its maximum with zero. The pooled sum adds, for each graph `g` and feature `d`, the rows
  `n` whose graph id (a 32-bit word) is `g`:
    pool h ids (g, d) = ∑ₙ (if ids (n, 0) = g then h (n, d) else 0).
  Nothing here needs finiteness: only sums and products of extended reals in a fixed order of operations.
-/
import Idealize.ShloMosaic.PureOps.Ideal
import Idealize.ShloMosaic.Lib.ValueIdx

noncomputable section

namespace Cert.GraphNet

open Idealize.ShloMosaic Idealize.ShloMosaic.ValueIdx
open scoped BigOperators

/-- One graph-convolution layer at node `n` and output feature `j`: the neighbour sum's row times the relation
    weights' column, plus the node's own row times the root weights' column, plus the bias entry. -/
def conv (K : Nat) (agg x : (⟨2, ![50000, K]⟩ : Shape).Idx → EReal) (wrel wroot : (⟨2, ![K, 64]⟩ : Shape).Idx → EReal)
    (b : (⟨2, ![1, 64]⟩ : Shape).Idx → EReal) : (⟨2, ![50000, 64]⟩ : Shape).Idx → EReal :=
  fun i => (∑ k : Fin K, agg (ix2 (i 0) k) * wrel (ix2 k (i 1)))
    + (∑ k : Fin K, x (ix2 (i 0) k) * wroot (ix2 k (i 1))) + b (ix2 0 (i 1))

/-- The layer followed by the rectifier: the maximum with zero, entry by entry. -/
def convRelu (K : Nat) (agg x : (⟨2, ![50000, K]⟩ : Shape).Idx → EReal) (wrel wroot : (⟨2, ![K, 64]⟩ : Shape).Idx → EReal)
    (b : (⟨2, ![1, 64]⟩ : Shape).Idx → EReal) : (⟨2, ![50000, 64]⟩ : Shape).Idx → EReal :=
  fun i => max (conv K agg x wrel wroot b i) 0

/-- The per-graph sums: entry `(g, d)` adds feature `d` of every node whose graph id is the word `g`. -/
def pool (h : (⟨2, ![50000, 64]⟩ : Shape).Idx → EReal) (ids : (⟨2, ![50000, 1]⟩ : Shape).Idx → BitVec 32) :
    (⟨2, ![64, 64]⟩ : Shape).Idx → EReal :=
  fun i => ∑ n : Fin 50000, if ids (ix2 n 0) = BitVec.ofNat 32 (i 0).val then h (ix2 n (i 1)) else 0

end Cert.GraphNet

end
-- ==== Proof.KLayer0.lean ====
/-
  What the pipeline of graph-convolution layer 1 leaves in its result array, at the ideal instance.
  Point t of the ten-point grid stages rows 5000·t … 5000·t + 4999 of the neighbour sums and of the node features,
  the two whole weight matrices and the bias row, and writes rows 5000·t … 5000·t + 4999 of the result: each entry
  (n, j) is the sum over k of agg (n, k) · wrel (k, j), plus the sum over k of x (n, k) · wroot (k, j), plus the bias
  entry b (0, j), and then its maximum with zero. The ten row blocks tile the array, so the array ends at that one function
  of the arrays the region found.
-/
import proofs.«418541_j1769526526179_1_alg».proof.Proof.Gen.KernelIdeal.Frame
import proofs.«418541_j1769526526179_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Layer0

open Cert.KernelIdeal Cert.KernelIdeal.Gen

variable (V : (c : Dev nD) → (b : Ref sig .tc) → Buf (Elt Ideal) ((c : Thread nD τ).loc b))

/-! ## One product of the body at an entry -/

/-- The row coordinate of the left operand's index is the output's row. -/
theorem lhs_row (i : S5000x64.Idx) (q : dot_S5000x3_S3x64_S5000x64_1_0_0_1_n_n.contr.Idx) :
    (dot_S5000x3_S3x64_S5000x64_1_0_0_1_n_n.lhsIdx i q 0).val = (i 0).val := by
  unfold DotDims.lhsIdx
  rw [dif_neg (show ¬(0 : Fin S5000x3.rank) ∈ dot_S5000x3_S3x64_S5000x64_1_0_0_1_n_n.lhsBatch by decide), dif_pos (show (0 : Fin S5000x3.rank) ∈ dot_S5000x3_S3x64_S5000x64_1_0_0_1_n_n.lhsNonContracting by decide)]
  rfl
/-- Its column coordinate is the summation index. -/
theorem lhs_col (i : S5000x64.Idx) (q : dot_S5000x3_S3x64_S5000x64_1_0_0_1_n_n.contr.Idx) :
    (dot_S5000x3_S3x64_S5000x64_1_0_0_1_n_n.lhsIdx i q 1).val = (q ⟨0, by decide⟩).val :=
  dot_S5000x3_S3x64_S5000x64_1_0_0_1_n_n.lhsIdx_val_of_single rfl i q
/-- The row coordinate of the right operand's index is the summation index. -/
theorem rhs_row (i : S5000x64.Idx) (q : dot_S5000x3_S3x64_S5000x64_1_0_0_1_n_n.contr.Idx) :
    (dot_S5000x3_S3x64_S5000x64_1_0_0_1_n_n.rhsIdx i q 0).val = (q ⟨0, by decide⟩).val :=
  dot_S5000x3_S3x64_S5000x64_1_0_0_1_n_n.rhsIdx_val_of_single rfl i q
/-- Its column coordinate is the output's column. -/
theorem rhs_col (i : S5000x64.Idx) (q : dot_S5000x3_S3x64_S5000x64_1_0_0_1_n_n.contr.Idx) :
    (dot_S5000x3_S3x64_S5000x64_1_0_0_1_n_n.rhsIdx i q 1).val = (i 1).val := by
  unfold DotDims.rhsIdx
  rw [dif_neg (show ¬(1 : Fin S3x64.rank) ∈ dot_S5000x3_S3x64_S5000x64_1_0_0_1_n_n.rhsBatch by decide), dif_pos (show (1 : Fin S3x64.rank) ∈ dot_S5000x3_S3x64_S5000x64_1_0_0_1_n_n.rhsNonContracting by decide)]
  rfl

/-- A [5000, 3] by [3, 64] product into the zero accumulator, at entry (p, q): the sum over k of a (p, k) · w (k, q). -/
theorem product_apply {φ₁ φ₂ : FTy} (a : FVec Ideal S5000x3 φ₁) (w : FVec Ideal S3x64 φ₂) (p : Fin 5000) (q : Fin 64) :
    FloatOps.matmul dot_S5000x3_S3x64_S5000x64_1_0_0_1_n_n none a w (constant (F := Ideal) S5000x64 .f32 0x00000000#32) (ix2 p q)
      = ∑ k : Fin 3, a (ix2 p k) * w (ix2 k q) := by
  rw [Ideal.matmul_constant_zero_apply, ← Equiv.sum_comp (contrEquiv1 dot_S5000x3_S3x64_S5000x64_1_0_0_1_n_n 3 rfl rfl).symm]
  refine Finset.sum_congr rfl fun k _ => ?_
  have hk := contrEquiv1_symm_val dot_S5000x3_S3x64_S5000x64_1_0_0_1_n_n 3 rfl rfl k
  have el : dot_S5000x3_S3x64_S5000x64_1_0_0_1_n_n.lhsIdx (ix2 p q) ((contrEquiv1 dot_S5000x3_S3x64_S5000x64_1_0_0_1_n_n 3 rfl rfl).symm k) = ix2 p k := funext fun a => Fin.ext (by
    match a with
    | ⟨0, _⟩ => exact lhs_row _ _
    | ⟨1, _⟩ => exact (lhs_col _ _).trans hk)
  have er : dot_S5000x3_S3x64_S5000x64_1_0_0_1_n_n.rhsIdx (ix2 p q) ((contrEquiv1 dot_S5000x3_S3x64_S5000x64_1_0_0_1_n_n 3 rfl rfl).symm k) = ix2 k q := funext fun a => Fin.ext (by
    match a with
    | ⟨0, _⟩ => exact (rhs_row _ _).trans hk
    | ⟨1, _⟩ => exact rhs_col _ _)
  rw [el, er]

/-! ## The body's result at an entry -/

/-- What the body stores at entry (p, q) of its block, from the five blocks it loaded: the two products' sums, the bias
    row's entry, and the maximum with zero. -/
theorem body_apply (v0 v3 : Vec Ideal S5000x3 .f32) (v5 v7 : Vec Ideal S3x64 .f32) (v12 : Vec Ideal S1x64 .f32) (p : Fin 5000) (q : Fin 64) :
    k0_pay1 (F := Ideal) v0 v3 v5 v7 v12 (ix2 p q)
      = max ((∑ k : Fin 3, v0 (ix2 p k) * v5 (ix2 k q)) + (∑ k : Fin 3, v3 (ix2 p k) * v7 (ix2 k q)) + v12 (ix2 0 q)) 0 := by
  unfold k0_pay1
  simp only [shapeCast_self, matmul]
  rw [maximumf_apply, addf_apply, addf_apply, product_apply, product_apply, broadcastTo_1b_ab_apply, broadcast_apply]
  simp only [truncf_apply]
  rw [show (FloatOps.ofBits FTy.f32 0x00000000#32 : Ideal .f32) = 0 from Ideal.ofBits_zero_f32]

/-! ## The arrays the region finds, and each block as rows of its array -/

/-- The neighbour sums. -/
abbrev agg (c : Dev nD) : Vec Ideal S50000x3 .f32 := V c main_v13
/-- The node features. -/
abbrev feat (c : Dev nD) : Vec Ideal S50000x3 .f32 := V c main_arg0
/-- The weights applied to the neighbour sums. -/
abbrev wrel (c : Dev nD) : Vec Ideal S3x64 .f32 := V c main_arg3
/-- The weights applied to the node's own features. -/
abbrev wroot (c : Dev nD) : Vec Ideal S3x64 .f32 := V c main_arg4
/-- The bias row. -/
abbrev bias (c : Dev nD) : Vec Ideal S1x64 .f32 := V c main_v14

theorem zero_offsets : (![0, 0] : Fin 2 → Nat) = fun _ => 0 := funext fun a => by fin_cases a <;> rfl

/-- The block indices over the grid: the two row-blocked inputs and the output are at block (t, 0) at point t, the two
    weight matrices and the bias row at block (0, 0) throughout. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the neighbour sums' block at point t is entry (5000·t + p, k) of the array. -/
theorem agg_block (c : Dev nD) (t : Fin cfg0.N) (p : Fin 5000) (k : Fin 3) (r : Fin 50000) (hr : r.val = 5000 * t.val + p.val) :
    (iblk0 V c 0 t : Vec Ideal S5000x3 .f32) (ix2 p k) = agg V c (ix2 r k) := by
  obtain ⟨e0, e1, -⟩ := block_indices t
  unfold iblk0
  rw [View.read_apply]
  show V c main_v13 _ = V c main_v13 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 3 + 1 * k.val = k.val; rw [e1]; omega

/-- Entry (p, k) of the node features' block at point t is entry (5000·t + p, k) of the array. -/
theorem feat_block (c : Dev nD) (t : Fin cfg0.N) (p : Fin 5000) (k : Fin 3) (r : Fin 50000) (hr : r.val = 5000 * t.val + p.val) :
    (iblk0 V c 1 t : Vec Ideal S5000x3 .f32) (ix2 p k) = feat V c (ix2 r k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 3 + 1 * k.val = k.val; rw [e1]; omega

/-- The block of the first weight matrix is the whole matrix, at every point. -/
theorem wrel_block (c : Dev nD) (t : Fin cfg0.N) (k : Fin 3) (q : Fin 64) :
    (iblk0 V c 2 t : Vec Ideal S3x64 .f32) (ix2 k q) = wrel V c (ix2 k q) := by
  obtain ⟨-, -, -, -, e0, e1, -⟩ := block_indices t
  unfold iblk0
  rw [View.read_apply]
  show V c main_arg3 _ = V c main_arg3 _
  congr 1
  funext a
  apply Fin.ext
  match a with
  | ⟨0, _⟩ => show win0_2.index t (0 : Fin 2) * 3 + 1 * k.val = k.val; rw [e0]; omega
  | ⟨1, _⟩ => show win0_2.index t (1 : Fin 2) * 64 + 1 * q.val = q.val; rw [e1]; omega

/-- The block of the second weight matrix is the whole matrix, at every point. -/
theorem wroot_block (c : Dev nD) (t : Fin cfg0.N) (k : Fin 3) (q : Fin 64) :
    (iblk0 V c 3 t : Vec Ideal S3x64 .f32) (ix2 k q) = wroot V c (ix2 k q) := by
  obtain ⟨-, -, -, -, -, -, e0, e1, -⟩ := block_indices t
  unfold iblk0
  rw [View.read_apply]
  show V c main_arg4 _ = V c main_arg4 _
  congr 1
  funext a
  apply Fin.ext
  match a with
  | ⟨0, _⟩ => show win0_3.index t (0 : Fin 2) * 3 + 1 * k.val = k.val; rw [e0]; omega
  | ⟨1, _⟩ => show win0_3.index t (1 : Fin 2) * 64 + 1 * q.val = q.val; rw [e1]; omega

/-- The block of the bias row is the whole row, at every point. -/
theorem bias_block (c : Dev nD) (t : Fin cfg0.N) (q : Fin 64) :
    (iblk0 V c 4 t : Vec Ideal S1x64 .f32) (ix2 (0 : Fin 1) q) = bias V c (ix2 (0 : Fin 1) q) := by
  obtain ⟨-, -, -, -, -, -, -, -, e0, e1, -⟩ := block_indices t
  unfold iblk0
  rw [View.read_apply]
  show V c main_v14 _ = V c main_v14 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 64 + 1 * q.val = q.val; rw [e1]; omega

/-! ## What a point writes back -/

/-- The layer's function of the arrays the region finds. -/
abbrev layer (c : Dev nD) : Vec Ideal S50000x64 .f32 :=
  Cert.GraphNet.convRelu 3 (V c main_v13) (V c main_arg0) (V c main_arg3) (V c main_arg4) (V c main_v14)

/-- The layer at row r, column q, with its index written by coordinates. -/
theorem layer_apply (c : Dev nD) (r : Fin 50000) (q : Fin 64) :
    layer V c (ix2 r q) = max ((∑ k : Fin 3, agg V c (ix2 r k) * wrel V c (ix2 k q)) + (∑ k : Fin 3, feat V c (ix2 r k) * wroot V c (ix2 k q)) + bias V c (ix2 0 q)) 0 := rfl

/-- Entry (p, q) of what the body leaves at point t is the layer at row 5000·t + p, column q. -/
theorem body_block (c : Dev nD) (t : Fin cfg0.N) (p : Fin 5000) (q : Fin 64) (r : Fin 50000) (hr : r.val = 5000 * t.val + p.val) :
    k0_pay1 (F := Ideal) (iblk0 V c 0 t) (iblk0 V c 1 t) (iblk0 V c 2 t) (iblk0 V c 3 t) (iblk0 V c 4 t) (ix2 p q) = layer V c (ix2 r q) := by
  refine (body_apply _ _ _ _ _ p q).trans ?_
  rw [layer_apply]
  simp only [agg_block V c t p _ r hr, feat_block V c t p _ r hr, wrel_block V c t, wroot_block V c t]
  rw [bias_block V c t q]

/-- What point t writes back is block t of the layer. -/
theorem written_back (c : Dev nD) (t : Fin cfg0.N) :
    (dat0 (F := Ideal) V c).flushed 5 t = ((cfg0.win 5).blk t).view.read (Elt Ideal) (layer V c) := by
  show (cfg0.win 5).cut (grid0.coords t) ((dat0 V c).after 5 t) = _
  rw [after0_5]
  unfold out0_5
  rw [View.canon_unit_zero zero_offsets]
  simp only [View.ld_unit_zero (S := S5000x3) zero_offsets, View.ld_unit_zero (S := S3x64) zero_offsets, View.ld_unit_zero (S := S1x64) zero_offsets]
  obtain ⟨-, -, -, -, -, -, -, -, -, -, e0, e1⟩ := block_indices t
  have hN : cfg0.N = 10 := N_0
  funext j
  obtain ⟨p, q, rfl⟩ : ∃ (p : Fin 5000) (q : Fin 64), j = ix2 p q := ⟨j 0, j 1, eq_ix2 j⟩
  have ht : t.val < 10 := hN ▸ t.isLt
  have hp : p.val < 5000 := p.isLt
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  rw [body_block V c t p q ⟨5000 * t.val + p.val, by omega⟩ rfl]
  congr 1
  funext a
  apply Fin.ext
  match a with
  | ⟨0, _⟩ => show 5000 * t.val + p.val = win0_5.index t (0 : Fin 2) * 5000 + 1 * p.val; rw [e0]; omega
  | ⟨1, _⟩ => show q.val = win0_5.index t (1 : Fin 2) * 64 + 1 * q.val; rw [e1]; omega

/-! ## The ten blocks tile the array -/

/-- An index of the array is in point t's block iff each coordinate is in the block's range on its axis. -/
theorem mem_block (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v15).slice (win0_5.rect t)).set ↔ _
  rw [View.set_slice_whole, Rect.mem_set_unit]
  exact Iff.rfl

/-- Row r of the array is in the block of point r / 5000. -/
theorem covered (i : S50000x64.Idx) :
    ∃ t : Fin cfg0.N, (cfg0.win 5).flush t = true ∧ i ∈ ((cfg0.win 5).blk t).view.set := by
  have hN : cfg0.N = 10 := N_0
  have hi0 : (i 0).val < 50000 := (i 0).isLt
  have hi1 : (i 1).val < 64 := (i 1).isLt
  let t : Fin cfg0.N := ⟨(i 0).val / 5000, by rw [hN]; omega⟩
  obtain ⟨-, -, -, -, -, -, -, -, -, -, e0, e1⟩ := block_indices t
  have e0' : win0_5.index t (0 : Fin 2) = (i 0).val / 5000 := e0
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; rw [e0']; omega
  | ⟨1, _⟩ => show win0_5.index t (1 : Fin 2) * 64 ≤ (i 1).val ∧ (i 1).val < win0_5.index t (1 : Fin 2) * 64 + 64; rw [e1]; omega

/-- The result array of layer 1's pipeline after its run is the layer's function of the arrays it was entered with. -/
theorem final (c : Dev nD) :
    (dat0 (F := Ideal) V c).arrAt 5 cfg0.N
      = Cert.GraphNet.convRelu 3 (V c main_v13) (V c main_arg0) (V c main_arg3) (V c main_arg4) (V c main_v14) :=
  (dat0 V c).arrAt_eq_of_cover 5 (layer V c) (fun t _ => written_back V c t) covered

end Cert.KernelIdeal.Layer0

end
-- ==== Proof.KLayer1.lean ====
/-
  What the pipeline of graph-convolution layer 2 leaves in its result array, at the ideal instance.
  Point t of the ten-point grid stages rows 5000·t … 5000·t + 4999 of the neighbour sums and of the node features,
  the two whole weight matrices and the bias row, and writes rows 5000·t … 5000·t + 4999 of the result: each entry
  (n, j) is the sum over k of agg (n, k) · wrel (k, j), plus the sum over k of x (n, k) · wroot (k, j), plus the bias
  entry b (0, j), and then its maximum with zero. The ten row blocks tile the array, so the array ends at that one function
  of the arrays the region found.
-/
import proofs.«418541_j1769526526179_1_alg».proof.Proof.Gen.KernelIdeal.Frame
import proofs.«418541_j1769526526179_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Layer1

open Cert.KernelIdeal Cert.KernelIdeal.Gen

variable (V : (c : Dev nD) → (b : Ref sig .tc) → Buf (Elt Ideal) ((c : Thread nD τ).loc b))

/-! ## The body's stored value at an index -/

/-- The product's row operand is read at the output's row -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and at the summation index; -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the weight operand at the summation index -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and at the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of rows times a weight matrix, added onto the zero matrix, at row `p` and column `q`: the sum over `k` of
    the row's entry `k` times the matrix's entry `(k, q)`. -/
theorem rows_times_weights_at (a : FVec Ideal S5000x64 .bf16) (w : FVec Ideal S64x64 .bf16) (p : Fin 5000) (q : Fin 64) :
    matmul dot_S5000x64_S64x64_S5000x64_1_0_0_1_n_n none a w (constant (F := Ideal) S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The body's stored value at row `p` and column `q` of the block: the neighbour sums' row times the relation weights'
    column, plus the features' row times the root weights' column, plus the bias entry, and the maximum of that with zero.
    The conversions to the narrower float type are the identity on extended reals, the casts are of a shape to itself,
    and the bias row is repeated down the rows. -/
theorem stored_at (v0 v3 : Vec Ideal S5000x64 .f32) (v6 v8 : Vec Ideal S64x64 .f32) (v13 : Vec Ideal S1x64 .f32)
    (p : Fin 5000) (q : Fin 64) :
    k1_pay1 (F := Ideal) v0 v3 v6 v8 v13 (ix2 p q)
      = max ((∑ k : Fin 64, v0 (ix2 p k) * v6 (ix2 k q)) + (∑ k : Fin 64, v3 (ix2 p k) * v8 (ix2 k q)) + v13 (ix2 0 q)) 0 := by
  unfold k1_pay1
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply v13 broadcasts_S1x64_S5000x64 p q)
  refine (addf_apply _ _ _).trans ?_
  exact congrArg₂ (· + ·) (rows_times_weights_at _ _ p q) (rows_times_weights_at _ _ p q)

/-! ## The blocks are the arrays' rows -/

/-- The zero offsets of the body's loads and of its store, spelt as the constant function. -/
theorem zero_offsets : (![0, 0] : Fin 2 → Nat) = fun _ => 0 := funext fun a => by fin_cases a <;> rfl

/-- The five arrays the region is entered with, each under its literal type: the neighbour sums, the node features,
    the relation weights, the root weights and the bias row. -/
abbrev agg (c : Dev nD) : Vec Ideal S50000x64 .f32 := V c main_v25
abbrev feat (c : Dev nD) : Vec Ideal S50000x64 .f32 := V c main_v15
abbrev wrel (c : Dev nD) : Vec Ideal S64x64 .f32 := V c main_arg6
abbrev wroot (c : Dev nD) : Vec Ideal S64x64 .f32 := V c main_arg7
abbrev bias (c : Dev nD) : Vec Ideal S1x64 .f32 := V c main_v26

/-- The blocks the body loads at point `t`, each under its literal type. -/
abbrev aggBlk (c : Dev nD) (t : Fin cfg1.N) : Vec Ideal S5000x64 .f32 := iblk1 V c 0 t
abbrev featBlk (c : Dev nD) (t : Fin cfg1.N) : Vec Ideal S5000x64 .f32 := iblk1 V c 1 t
abbrev wrelBlk (c : Dev nD) (t : Fin cfg1.N) : Vec Ideal S64x64 .f32 := iblk1 V c 2 t
abbrev wrootBlk (c : Dev nD) (t : Fin cfg1.N) : Vec Ideal S64x64 .f32 := iblk1 V c 3 t
abbrev biasBlk (c : Dev nD) (t : Fin cfg1.N) : Vec Ideal S1x64 .f32 := iblk1 V c 4 t

/-- The layer's function of those arrays: what the result array is to hold. -/
abbrev layer (c : Dev nD) : Vec Ideal S50000x64 .f32 :=
  Cert.GraphNet.convRelu 64 (agg V c) (feat V c) (wrel V c) (wroot V c) (bias V c)

/-- The index maps over the ten points: the two row-blocked inputs and the result sit at block row `t`, column block 0;
    the two weight matrices and the bias row are their whole arrays, at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The neighbour sums' block at point `t` is rows `5000·t … 5000·t + 4999` of the array: a block's coordinate in the
    array is the block index times the block's size plus the coordinate inside the block. -/
theorem aggBlk_rows (c : Dev nD) (t : Fin cfg1.N) (p : Fin 5000) (k : Fin 64) (r : Fin 50000)
    (hr : r.val = 5000 * t.val + p.val) : aggBlk V c t (ix2 p k) = agg V c (ix2 r k) := by
  obtain ⟨e0, e1, -⟩ := block_indices t
  show V c main_v25 (((cfg1.win 0).blk t).view.emb (ix2 p k)) = V c main_v25 (ix2 r k)
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The node features' block at point `t` is rows `5000·t … 5000·t + 4999` of the array. -/
theorem featBlk_rows (c : Dev nD) (t : Fin cfg1.N) (p : Fin 5000) (k : Fin 64) (r : Fin 50000)
    (hr : r.val = 5000 * t.val + p.val) : featBlk V c t (ix2 p k) = feat V c (ix2 r k) := by
  obtain ⟨-, -, e0, e1, -⟩ := block_indices t
  show V c main_v15 (((cfg1.win 1).blk t).view.emb (ix2 p k)) = V c main_v15 (ix2 r k)
  congr 1
  funext a
  apply Fin.ext
  match a with
  | ⟨0, _⟩ => show win1_1.index t (0 : Fin 2) * 5000 + 1 * p.val = r.val; rw [e0, hr]; omega
  | ⟨1, _⟩ => show win1_1.index t (1 : Fin 2) * 64 + 1 * k.val = k.val; rw [e1]; omega

/-- The relation weights' block is the whole matrix at every point. -/
theorem wrelBlk_whole (c : Dev nD) (t : Fin cfg1.N) (k q : Fin 64) :
    wrelBlk V c t (ix2 k q) = wrel V c (ix2 k q) := by
  obtain ⟨-, -, -, -, e0, e1, -⟩ := block_indices t
  show V c main_arg6 (((cfg1.win 2).blk t).view.emb (ix2 k q)) = V c main_arg6 (ix2 k q)
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The root weights' block is the whole matrix at every point. -/
theorem wrootBlk_whole (c : Dev nD) (t : Fin cfg1.N) (k q : Fin 64) :
    wrootBlk V c t (ix2 k q) = wroot V c (ix2 k q) := by
  obtain ⟨-, -, -, -, -, -, e0, e1, -⟩ := block_indices t
  show V c main_arg7 (((cfg1.win 3).blk t).view.emb (ix2 k q)) = V c main_arg7 (ix2 k q)
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias block is the whole row at every point. -/
theorem biasBlk_whole (c : Dev nD) (t : Fin cfg1.N) (q : Fin 64) :
    biasBlk V c t (ix2 (0 : Fin 1) q) = bias V c (ix2 (0 : Fin 1) q) := by
  obtain ⟨-, -, -, -, -, -, -, -, e0, e1, -⟩ := block_indices t
  show V c main_v26 (((cfg1.win 4).blk t).view.emb (ix2 (0 : Fin 1) q)) = V c main_v26 (ix2 (0 : Fin 1) q)
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 64 + 1 * q.val = q.val; rw [e1]; omega

/-! ## From blocks to the array -/

/-- What point `t` writes back is block `t` of the layer's function of the arrays: the body's stored value at row `p`
    of the block is the layer's at row `5000·t + p` of the array, the loaded blocks being those rows of the two
    row-blocked arrays, the whole weight matrices and the whole bias row. -/
theorem writes_layer_block (c : Dev nD) (t : Fin cfg1.N) :
    (dat1 (F := Ideal) V c).flushed 5 t = ((cfg1.win 5).blk t).view.read (Elt Ideal) (layer V c) := by
  show (cfg1.win 5).cut (grid1.coords t) ((dat1 (F := Ideal) V c).after 5 t) = _
  rw [after1_5]
  unfold out1_5
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  have ht : t.val < 10 := lt_of_lt_of_eq t.isLt N_1
  obtain ⟨r, hr⟩ : ∃ r : Fin 50000, r.val = 5000 * t.val + p.val :=
    ⟨⟨5000 * t.val + p.val, by have := p.isLt; omega⟩, rfl⟩
  have hemb : ((cfg1.win 5).blk t).view.emb (ix2 p q) = ix2 r q := by
    obtain ⟨-, -, -, -, -, -, -, -, -, -, e0, e1⟩ := block_indices t
    funext a
    apply Fin.ext
    match a with
    | ⟨0, _⟩ => show win1_5.index t (0 : Fin 2) * 5000 + 1 * p.val = r.val; rw [e0, hr]; omega
    | ⟨1, _⟩ => show win1_5.index t (1 : Fin 2) * 64 + 1 * q.val = q.val; rw [e1]; omega
  show k1_pay1 (F := Ideal) (aggBlk V c t) (featBlk V c t) (wrelBlk V c t) (wrootBlk V c t) (biasBlk V c t) (ix2 p q)
    = layer V c (((cfg1.win 5).blk t).view.emb (ix2 p q))
  rw [hemb]
  refine (stored_at (aggBlk V c t) (featBlk V c t) (wrelBlk V c t) (wrootBlk V c t) (biasBlk V c t) p q).trans ?_
  show _ = max ((∑ k : Fin 64, agg V c (ix2 r k) * wrel V c (ix2 k q))
    + (∑ k : Fin 64, feat V c (ix2 r k) * wroot V c (ix2 k q)) + bias V c (ix2 (0 : Fin 1) q)) 0
  refine congrArg₂ max (congrArg₂ (· + ·) (congrArg₂ (· + ·) (Finset.sum_congr rfl fun k _ => ?_)
    (Finset.sum_congr rfl fun k _ => ?_)) ?_) rfl
  · exact congrArg₂ (· * ·) (aggBlk_rows V c t p k r hr) (wrelBlk_whole V c t k q)
  · exact congrArg₂ (· * ·) (featBlk_rows V c t p k r hr) (wrootBlk_whole V c t k q)
  · exact biasBlk_whole V c t q

/-- An index of the result array is in point `t`'s block iff each coordinate is in the block's range on its axis. -/
theorem mem_row_block (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v27).slice (win1_5.rect t)).set ↔ _
  rw [View.set_slice_whole, Rect.mem_set_unit]
  exact Iff.rfl

/-- The ten row blocks tile the result array: row `n` is in the block of point `n / 5000`, and every point writes its
    block back. -/
theorem row_blocks_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, e0, e1⟩ := block_indices t
  refine ⟨t, flush1_5 t, ?_⟩
  rw [mem_row_block]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- The result array of layer 2's pipeline after its run is the layer's function of the arrays it was entered with. -/
theorem final (c : Dev nD) :
    (dat1 (F := Ideal) V c).arrAt 5 cfg1.N
      = Cert.GraphNet.convRelu 64 (V c main_v25) (V c main_v15) (V c main_arg6) (V c main_arg7) (V c main_v26) :=
  (dat1 (F := Ideal) V c).arrAt_eq_of_cover 5 (layer V c) (fun t _ => writes_layer_block V c t) row_blocks_cover

end Cert.KernelIdeal.Layer1

end
-- ==== Proof.KLayer2.lean ====
/-
  What the pipeline of graph-convolution layer 3 leaves in its result array, at the ideal instance.
  Point t of the ten-point grid stages rows 5000·t … 5000·t + 4999 of the neighbour sums and of the node features,
  the two whole weight matrices and the bias row, and writes rows 5000·t … 5000·t + 4999 of the result: each entry
  (n, j) is the sum over k of agg (n, k) · wrel (k, j), plus the sum over k of x (n, k) · wroot (k, j), plus the bias
  entry b (0, j). The ten row blocks tile the array, so the array ends at that one function
  of the arrays the region found.
-/
import proofs.«418541_j1769526526179_1_alg».proof.Proof.Gen.KernelIdeal.Frame
import proofs.«418541_j1769526526179_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Layer2

open Cert.KernelIdeal Cert.KernelIdeal.Gen

variable (V : (c : Dev nD) → (b : Ref sig .tc) → Buf (Elt Ideal) ((c : Thread nD τ).loc b))

/-! ## One product of the body at an entry -/

/-- The row coordinate of the left operand's index is the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Its column coordinate is the summation index. -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The row coordinate of the right operand's index is the summation index. -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Its column coordinate is the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000, 64] by [64, 64] product into the zero accumulator, at entry (p, q): the sum over k of a (p, k) · w (k, q). -/
theorem product_apply {φ₁ φ₂ : FTy} (a : FVec Ideal S5000x64 φ₁) (w : FVec Ideal S64x64 φ₂) (p : Fin 5000) (q : Fin 64) :
    FloatOps.matmul dot_S5000x64_S64x64_S5000x64_1_0_0_1_n_n none a w (constant (F := Ideal) S5000x64 .f32 0x00000000#32) (ix2 p q)
      = ∑ k : Fin 64, a (ix2 p k) * w (ix2 k q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The body's result at an entry -/

/-- What the body stores at entry (p, q) of its block, from the five blocks it loaded: the two products' sums and the bias
    row's entry. -/
theorem body_apply (v0 v3 : Vec Ideal S5000x64 .f32) (v6 v8 : Vec Ideal S64x64 .f32) (v13 : Vec Ideal S1x64 .f32) (p : Fin 5000) (q : Fin 64) :
    k2_pay1 (F := Ideal) v0 v3 v6 v8 v13 (ix2 p q)
      = (∑ k : Fin 64, v0 (ix2 p k) * v6 (ix2 k q)) + (∑ k : Fin 64, v3 (ix2 p k) * v8 (ix2 k q)) + v13 (ix2 0 q) := by
  unfold k2_pay1
  simp only [shapeCast_self, matmul]
  rw [addf_apply, addf_apply, product_apply, product_apply, broadcastTo_1b_ab_apply]
  simp only [truncf_apply]

/-! ## The arrays the region finds, and each block as rows of its array -/

/-- The neighbour sums. -/
abbrev agg (c : Dev nD) : Vec Ideal S50000x64 .f32 := V c main_v37
/-- The node features. -/
abbrev feat (c : Dev nD) : Vec Ideal S50000x64 .f32 := V c main_v27
/-- The weights applied to the neighbour sums. -/
abbrev wrel (c : Dev nD) : Vec Ideal S64x64 .f32 := V c main_arg9
/-- The weights applied to the node's own features. -/
abbrev wroot (c : Dev nD) : Vec Ideal S64x64 .f32 := V c main_arg10
/-- The bias row. -/
abbrev bias (c : Dev nD) : Vec Ideal S1x64 .f32 := V c main_v38

theorem zero_offsets : (![0, 0] : Fin 2 → Nat) = fun _ => 0 := funext fun a => by fin_cases a <;> rfl

/-- The block indices over the grid: the two row-blocked inputs and the output are at block (t, 0) at point t, the two
    weight matrices and the bias row at block (0, 0) throughout. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry (p, k) of the neighbour sums' block at point t is entry (5000·t + p, k) of the array. -/
theorem agg_block (c : Dev nD) (t : Fin cfg2.N) (p : Fin 5000) (k : Fin 64) (r : Fin 50000) (hr : r.val = 5000 * t.val + p.val) :
    (iblk2 V c 0 t : Vec Ideal S5000x64 .f32) (ix2 p k) = agg V c (ix2 r k) := by
  obtain ⟨e0, e1, -⟩ := block_indices t
  unfold iblk2
  rw [View.read_apply]
  show V c main_v37 _ = V c main_v37 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Entry (p, k) of the node features' block at point t is entry (5000·t + p, k) of the array. -/
theorem feat_block (c : Dev nD) (t : Fin cfg2.N) (p : Fin 5000) (k : Fin 64) (r : Fin 50000) (hr : r.val = 5000 * t.val + p.val) :
    (iblk2 V c 1 t : Vec Ideal S5000x64 .f32) (ix2 p k) = feat V c (ix2 r k) := by
  obtain ⟨-, -, e0, e1, -⟩ := block_indices t
  unfold iblk2
  rw [View.read_apply]
  show V c main_v27 _ = V c main_v27 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 64 + 1 * k.val = k.val; rw [e1]; omega

/-- The block of the first weight matrix is the whole matrix, at every point. -/
theorem wrel_block (c : Dev nD) (t : Fin cfg2.N) (k : Fin 64) (q : Fin 64) :
    (iblk2 V c 2 t : Vec Ideal S64x64 .f32) (ix2 k q) = wrel V c (ix2 k q) := by
  obtain ⟨-, -, -, -, e0, e1, -⟩ := block_indices t
  unfold iblk2
  rw [View.read_apply]
  show V c main_arg9 _ = V c main_arg9 _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- The block of the second weight matrix is the whole matrix, at every point. -/
theorem wroot_block (c : Dev nD) (t : Fin cfg2.N) (k : Fin 64) (q : Fin 64) :
    (iblk2 V c 3 t : Vec Ideal S64x64 .f32) (ix2 k q) = wroot V c (ix2 k q) := by
  obtain ⟨-, -, -, -, -, -, e0, e1, -⟩ := block_indices t
  unfold iblk2
  rw [View.read_apply]
  show V c main_arg10 _ = V c main_arg10 _
  congr 1
  funext a
  apply Fin.ext
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- The block of the bias row is the whole row, at every point. -/
theorem bias_block (c : Dev nD) (t : Fin cfg2.N) (q : Fin 64) :
    (iblk2 V c 4 t : Vec Ideal S1x64 .f32) (ix2 (0 : Fin 1) q) = bias V c (ix2 (0 : Fin 1) q) := by
  obtain ⟨-, -, -, -, -, -, -, -, e0, e1, -⟩ := block_indices t
  unfold iblk2
  rw [View.read_apply]
  show V c main_v38 _ = V c main_v38 _
  congr 1
  funext a
  apply Fin.ext
  match a with
  | ⟨0, _⟩ => show win2_4.index t (0 : Fin 2) * 1 + 1 * (0 : Fin 1).val = (0 : Fin 1).val; rw [e0]; rfl
  | ⟨1, _⟩ => show win2_4.index t (1 : Fin 2) * 64 + 1 * q.val = q.val; rw [e1]; omega

/-! ## What a point writes back -/

/-- The layer's function of the arrays the region finds. -/
abbrev layer (c : Dev nD) : Vec Ideal S50000x64 .f32 :=
  Cert.GraphNet.conv 64 (V c main_v37) (V c main_v27) (V c main_arg9) (V c main_arg10) (V c main_v38)

/-- The layer at row r, column q, with its index written by coordinates. -/
theorem layer_apply (c : Dev nD) (r : Fin 50000) (q : Fin 64) :
    layer V c (ix2 r q) = (∑ k : Fin 64, agg V c (ix2 r k) * wrel V c (ix2 k q)) + (∑ k : Fin 64, feat V c (ix2 r k) * wroot V c (ix2 k q)) + bias V c (ix2 0 q) := rfl

/-- Entry (p, q) of what the body leaves at point t is the layer at row 5000·t + p, column q. -/
theorem body_block (c : Dev nD) (t : Fin cfg2.N) (p : Fin 5000) (q : Fin 64) (r : Fin 50000) (hr : r.val = 5000 * t.val + p.val) :
    k2_pay1 (F := Ideal) (iblk2 V c 0 t) (iblk2 V c 1 t) (iblk2 V c 2 t) (iblk2 V c 3 t) (iblk2 V c 4 t) (ix2 p q) = layer V c (ix2 r q) := by
  refine (body_apply _ _ _ _ _ p q).trans ?_
  rw [layer_apply]
  simp only [agg_block V c t p _ r hr, feat_block V c t p _ r hr, wrel_block V c t, wroot_block V c t]
  rw [bias_block V c t q]

/-- What point t writes back is block t of the layer. -/
theorem written_back (c : Dev nD) (t : Fin cfg2.N) :
    (dat2 (F := Ideal) V c).flushed 5 t = ((cfg2.win 5).blk t).view.read (Elt Ideal) (layer V c) := by
  show (cfg2.win 5).cut (grid2.coords t) ((dat2 V c).after 5 t) = _
  rw [after2_5]
  unfold out2_5
  rw [View.canon_unit_zero zero_offsets]
  simp only [View.ld_unit_zero (S := S5000x64) zero_offsets, View.ld_unit_zero (S := S64x64) zero_offsets, View.ld_unit_zero (S := S1x64) zero_offsets]
  obtain ⟨-, -, -, -, -, -, -, -, -, -, e0, e1⟩ := block_indices t
  have hN : cfg2.N = 10 := N_2
  funext j
  obtain ⟨p, q, rfl⟩ : ∃ (p : Fin 5000) (q : Fin 64), j = ix2 p q := ⟨j 0, j 1, eq_ix2 j⟩
  have ht : t.val < 10 := hN ▸ t.isLt
  have hp : p.val < 5000 := p.isLt
  show k2_pay1 (F := Ideal) (iblk2 V c 0 t) (iblk2 V c 1 t) (iblk2 V c 2 t) (iblk2 V c 3 t) (iblk2 V c 4 t) (ix2 p q)
    = layer V c (((cfg2.win 5).blk t).view.emb (ix2 p q))
  rw [body_block V c t p q ⟨5000 * t.val + p.val, by omega⟩ rfl]
  congr 1
  funext a
  apply Fin.ext
  match a with
  | ⟨0, _⟩ => show 5000 * t.val + p.val = win2_5.index t (0 : Fin 2) * 5000 + 1 * p.val; rw [e0]; omega
  | ⟨1, _⟩ => show q.val = win2_5.index t (1 : Fin 2) * 64 + 1 * q.val; rw [e1]; omega

/-! ## The ten blocks tile the array -/

/-- An index of the array is in point t's block iff each coordinate is in the block's range on its axis. -/
theorem mem_block (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v39).slice (win2_5.rect t)).set ↔ _
  rw [View.set_slice_whole, Rect.mem_set_unit]
  exact Iff.rfl

/-- Row r of the array is in the block of point r / 5000. -/
theorem covered (i : S50000x64.Idx) :
    ∃ t : Fin cfg2.N, (cfg2.win 5).flush t = true ∧ i ∈ ((cfg2.win 5).blk t).view.set := by
  have hN : cfg2.N = 10 := N_2
  have hi0 : (i 0).val < 50000 := (i 0).isLt
  have hi1 : (i 1).val < 64 := (i 1).isLt
  let t : Fin cfg2.N := ⟨(i 0).val / 5000, by rw [hN]; omega⟩
  obtain ⟨-, -, -, -, -, -, -, -, -, -, e0, e1⟩ := block_indices t
  have e0' : win2_5.index t (0 : Fin 2) = (i 0).val / 5000 := e0
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; rw [e0']; omega
  | ⟨1, _⟩ => show win2_5.index t (1 : Fin 2) * 64 ≤ (i 1).val ∧ (i 1).val < win2_5.index t (1 : Fin 2) * 64 + 64; rw [e1]; omega

/-- The result array of layer 3's pipeline after its run is the layer's function of the arrays it was entered with. -/
theorem final (c : Dev nD) :
    (dat2 (F := Ideal) V c).arrAt 5 cfg2.N
      = Cert.GraphNet.conv 64 (V c main_v37) (V c main_v27) (V c main_arg9) (V c main_arg10) (V c main_v38) :=
  (dat2 V c).arrAt_eq_of_cover 5 (layer V c) (fun t _ => written_back V c t) covered

end Cert.KernelIdeal.Layer2

end
-- ==== Proof.KPool.lean ====
/-
  What the pooling pipeline leaves in its result array, at the ideal instance. Its one [64, 64] block is revisited by
  all ten points: point 0 zeroes it and every point adds, for graph g and feature d, the sum over its 5000 rows r of
  (1 if the row's graph id is g, else 0) · h (5000·t + r, d). A product with one is the factor and a product with zero
  is zero, so after the last point entry (g, d) is the sum, over all 50000 rows, of h (n, d) where the row's id is g.
-/
import proofs.«418541_j1769526526179_1_alg».proof.Proof.Gen.KernelIdeal.Frame
import proofs.«418541_j1769526526179_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Pool

open Cert.KernelIdeal Cert.KernelIdeal.Gen

variable (V : (c : Dev nD) → (b : Ref sig .tc) → Buf (Elt Ideal) ((c : Thread nD τ).loc b))

/-- The zero offsets of a whole-block load or store, as the constant function. -/
theorem hz : (![0, 0] : Fin 2 → Nat) = fun _ => 0 := funext fun a => by fin_cases a <;> rfl

/-- Points 1 to 9: over a block holding `xo` the body leaves the update of `xo` by the staged ids and features. -/
theorem out_B (c : Dev nD) (i : grid3.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (hc : ¬cond3_0 i) (x0 : Vec Ideal S5000x64 .f32) (x1 : Vec Ideal S5000x1 .i32) (xo : Vec Ideal S64x64 .f32) :
    out3_B_2 (F := Ideal) c i a1 h1 a2 h2 a3 h3 hc x0 x1 xo = k3_pay2 (F := Ideal) x1 x0 xo := by
  unfold out3_B_2
  rw [View.read_writes_eq_canon _ _ _ (cover3_B_2 c i a1 h1 a2 h2 a3 h3 hc x0 x1 xo)]
  unfold kernelRun3_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S64x64) hz]

/-- Point 0: the body zeroes the block and leaves the update of the zero block. -/
theorem out_A (c : Dev nD) (i : grid3.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (hc : cond3_0 i) (x0 : Vec Ideal S5000x64 .f32) (x1 : Vec Ideal S5000x1 .i32) :
    out3_A_2 (F := Ideal) c i a1 h1 a2 h2 a3 h3 hc x0 x1 = k3_pay2 (F := Ideal) x1 x0 (k3_pay1 (F := Ideal)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x64) hz, View.readCov_unit_zero (S := S64x64) _ hz]
  simp only [View.readAt_eq_ld, h1.read_unread, h2.read_unread, View.ld_unit_zero (S := S5000x64) hz,
    View.ld_unit_zero (S := S5000x1) hz]

/-! ## The update read at an entry -/

/-- A one-bit comparison widened to a word and read as a signed integer is 1 where the words agree and 0 elsewhere. -/
theorem cmpi_word (a b : BitVec 32) : ((IntOp.cmpi .eq a b).setWidth 32).toInt = if a = b then 1 else 0 := by
  show ((BitVec.ofBool (a == b)).setWidth 32).toInt = _
  by_cases h : a = b
  · rw [if_pos h, beq_iff_eq.mpr h]; decide
  · rw [if_neg h, beq_eq_false_iff_ne.mpr h]; decide

/-- So converted to an extended real it is the indicator of the agreement. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [cmpi_word]
  by_cases h : a = b
  · rw [if_pos h, if_pos h]; simp
  · rw [if_neg h, if_neg h]; simp

/-- The product's dimension numbers: axis 0 of both operands is contracted, the left operand's axis 1 is the result's
    axis 0 and the right operand's axis 1 the result's axis 1. -/
abbrev DD : DotDims S5000x64 S5000x64 S64x64 := dot_S5000x64_S5000x64_S64x64_0_0_1_1_n_n

theorem lhs_ax0 (j : S64x64.Idx) (q : DD.contr.Idx) : (DD.lhsIdx j q 0).val = (q ⟨0, by decide⟩).val :=
  DD.lhsIdx_val_of_single rfl j q
theorem lhs_ax1 (j : S64x64.Idx) (q : DD.contr.Idx) : (DD.lhsIdx j q 1).val = (j 0).val := by
  unfold DotDims.lhsIdx
  rw [dif_neg (show ¬(1 : Fin S5000x64.rank) ∈ DD.lhsBatch by decide), dif_pos (show (1 : Fin S5000x64.rank) ∈ DD.lhsNonContracting by decide)]
  rfl
theorem rhs_ax0 (j : S64x64.Idx) (q : DD.contr.Idx) : (DD.rhsIdx j q 0).val = (q ⟨0, by decide⟩).val :=
  DD.rhsIdx_val_of_single rfl j q
theorem rhs_ax1 (j : S64x64.Idx) (q : DD.contr.Idx) : (DD.rhsIdx j q 1).val = (j 1).val := by
  unfold DotDims.rhsIdx
  rw [dif_neg (show ¬(1 : Fin S5000x64.rank) ∈ DD.rhsBatch by decide), dif_pos (show (1 : Fin S5000x64.rank) ∈ DD.rhsNonContracting by decide)]
  rfl

/-- The update at entry (g, d): what the block held there plus, over the 5000 staged rows, the feature d of each row whose
    id is the word g. The one-hot factor is 1 or 0, and in the extended reals 1 · x = x and 0 · x = 0 for every x. -/
theorem pay2_apply (x1 : Vec Ideal S5000x1 .i32) (x0 : Vec Ideal S5000x64 .f32) (xo : Vec Ideal S64x64 .f32) (g d : Fin 64) :
    (k3_pay2 (F := Ideal) x1 x0 xo (ix2 g d) : EReal)
      = (xo (ix2 g d) : EReal) + ∑ r : Fin 5000, if x1 (ix2 r 0) = BitVec.ofNat 32 g.val then (x0 (ix2 r d) : EReal) else 0 := by
  unfold k3_pay2
  dsimp only
  rw [shapeCast_self, shapeCast_self, shapeCast_self]
  refine (addf_apply _ _ (ix2 g d)).trans ?_
  refine congrArg (fun z : EReal => (xo (ix2 g d) : EReal) + z) ?_
  refine (Ideal.matmul_constant_zero_apply DD none _ _ (ix2 g d)).trans ?_
  rw [← Equiv.sum_comp (contrEquiv1 DD 5000 rfl rfl).symm]
  refine Finset.sum_congr rfl fun r _ => ?_
  have hk := contrEquiv1_symm_val DD 5000 rfl rfl r
  have el : DD.lhsIdx (ix2 g d) ((contrEquiv1 DD 5000 rfl rfl).symm r) = ix2 r g := funext fun a => Fin.ext (by
    match a with
    | ⟨0, _⟩ => exact (lhs_ax0 _ _).trans hk
    | ⟨1, _⟩ => exact lhs_ax1 _ _)
  have er : DD.rhsIdx (ix2 g d) ((contrEquiv1 DD 5000 rfl rfl).symm r) = ix2 r d := funext fun a => Fin.ext (by
    match a with
    | ⟨0, _⟩ => exact (rhs_ax0 _ _).trans hk
    | ⟨1, _⟩ => exact rhs_ax1 _ _)
  rw [el, er]
  show (FloatOps.sitofp (F := Ideal) .f32 ((IntOp.cmpi .eq (broadcastTo S5000x64 x1 broadcasts_S5000x1_S5000x64 (ix2 r g))
      (iota .tc S5000x64 32 [1] iota_S5000x64_d1_w32 (ix2 r g))).setWidth 32) : EReal) * (x0 (ix2 r d) : EReal) = _
  rw [onehot_word, broadcastTo_apply x1 broadcasts_S5000x1_S5000x64 (ix2 r g) (ix2 r 0) (fun a => match a with
      | ⟨0, _⟩ => by show r.val = if (5000 : Nat) = 1 then 0 else r.val; rw [if_neg (by decide)]
      | ⟨1, _⟩ => by show (0 : Fin 1).val = if (1 : Nat) = 1 then 0 else g.val; rw [if_pos rfl]; rfl),
    iota_single_apply]
  show (if x1 (ix2 r 0) = BitVec.ofNat 32 g.val then (1 : EReal) else 0) * (x0 (ix2 r d) : EReal) = _
  by_cases h : x1 (ix2 r 0) = BitVec.ofNat 32 g.val
  · rw [if_pos h, if_pos h, one_mul]
  · rw [if_neg h, if_neg h, zero_mul]

/-! ## The staged blocks, read off the arrays -/

/-- The features array and the ids array the region is entered with, and the blocks point `t` stages of them. -/
abbrev harr (c : Dev nD) : Vec Ideal S50000x64 .f32 := V c main_v39
abbrev idarr (c : Dev nD) : Vec Ideal S50000x1 .i32 := V c main_v40
abbrev hblk (c : Dev nD) (t : Fin cfg3.N) : Vec Ideal S5000x64 .f32 := iblk3 (F := Ideal) V c 0 t
abbrev idblk (c : Dev nD) (t : Fin cfg3.N) : Vec Ideal S5000x1 .i32 := iblk3 (F := Ideal) V c 1 t

/-- Point `t`'s blocks begin at row block `t` on axis 0 and at 0 on axis 1 — decided over the ten points. -/
theorem index3_0 : ∀ t : Fin cfg3.N, win3_0.index t 0 = t.val ∧ win3_0.index t 1 = 0 :=
  (by decide +kernel : ∀ t : Fin grid3.N, win3_0.index t 0 = t.val ∧ win3_0.index t 1 = 0)
theorem index3_1 : ∀ t : Fin cfg3.N, win3_1.index t 0 = t.val ∧ win3_1.index t 1 = 0 :=
  (by decide +kernel : ∀ t : Fin grid3.N, win3_1.index t 0 = t.val ∧ win3_1.index t 1 = 0)

/-- Row `r` of the features block of point `t` is row `5000·t + r` of the array. -/
theorem hblk_apply (c : Dev nD) (t : Fin cfg3.N) (r : Fin 5000) (d : Fin 64) (hn : 5000 * t.val + r.val < 50000) :
    hblk V c t (ix2 r d) = harr V c (ix2 ⟨5000 * t.val + r.val, hn⟩ d) := by
  show iblk3 (F := Ideal) V c 0 t (ix2 r d) = _
  unfold iblk3
  rw [View.read_apply]
  show V c main_v39 _ = V c main_v39 _
  refine congrArg (V c main_v39) (funext fun a => Fin.ext ?_)
  match a with
  | ⟨0, _⟩ => show win3_0.index t 0 * 5000 + 1 * r.val = 5000 * t.val + r.val; rw [(index3_0 t).1]; omega
  | ⟨1, _⟩ => show win3_0.index t 1 * 64 + 1 * d.val = d.val; rw [(index3_0 t).2]; omega

/-- Row `r` of the ids block of point `t` is row `5000·t + r` of the array. -/
theorem idblk_apply (c : Dev nD) (t : Fin cfg3.N) (r : Fin 5000) (hn : 5000 * t.val + r.val < 50000) :
    idblk V c t (ix2 r 0) = idarr V c (ix2 ⟨5000 * t.val + r.val, hn⟩ 0) := by
  show iblk3 (F := Ideal) V c 1 t (ix2 r 0) = _
  unfold iblk3
  rw [View.read_apply]
  show V c main_v40 _ = V c main_v40 _
  refine congrArg (V c main_v40) (funext fun a => Fin.ext ?_)
  match a with
  | ⟨0, _⟩ => show win3_1.index t 0 * 5000 + 1 * r.val = 5000 * t.val + r.val; rw [(index3_1 t).1]; omega
  | ⟨1, _⟩ => show win3_1.index t 1 * 1 + 1 * (0 : Fin 1).val = (0 : Fin 1).val; rw [(index3_1 t).2]; rfl

/-! ## The block after each point -/

/-- What the block holds after point `n`: at point 0 the update of the zero block, afterwards the update of what the
    point before left — each by that point's staged ids and features. -/
def chain (c : Dev nD) : (n : ℕ) → n < cfg3.N → Vec Ideal S64x64 .f32
  | 0, h => k3_pay2 (F := Ideal) (idblk V c ⟨0, h⟩) (hblk V c ⟨0, h⟩) (k3_pay1 (F := Ideal))
  | n + 1, h => k3_pay2 (F := Ideal) (idblk V c ⟨n + 1, h⟩) (hblk V c ⟨n + 1, h⟩) (chain c n (Nat.lt_of_succ_lt h))

/-- The block's contents after each point, as the frame defines them by recursion on the point, are that chain of
    updates: by induction on the point. -/
theorem outsAt_eq (c : Dev nD) : ∀ (n : ℕ) (h : n < cfg3.N), outsAt3 (F := Ideal) V c n h = chain V c n h
  | 0, h => (outsAt3_A V c ⟨0, h⟩ rfl).trans
      (out_A c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩)
        ((hcond3_0 ⟨0, h⟩).mpr rfl) (hblk V c ⟨0, h⟩) (idblk V c ⟨0, h⟩))
  | n + 1, h => by
    have hN : n + 1 < 10 := lt_of_lt_of_eq h (show cfg3.N = 10 from N_3)
    have hB : ¬(⟨n + 1, h⟩ : Fin cfg3.N).val % 10 = 0 := by dsimp only; omega
    rw [outsAt3_B V c ⟨n + 1, h⟩ hB]
    dsimp only
    rw [out_B c (grid3.coords ⟨n + 1, h⟩) (ms3_0 ⟨n + 1, h⟩) (hs3_0 ⟨n + 1, h⟩) (ms3_1 ⟨n + 1, h⟩) (hs3_1 ⟨n + 1, h⟩)
      (ms3_2 ⟨n + 1, h⟩) (hs3_2 ⟨n + 1, h⟩) (fun hh => hB ((hcond3_0 ⟨n + 1, h⟩).mp hh)) (hblk V c ⟨n + 1, h⟩) (idblk V c ⟨n + 1, h⟩)
      (outsAt3 (F := Ideal) V c (n + 1 - 1) (Nat.lt_of_le_of_lt (Nat.sub_le _ _) h))]
    show k3_pay2 (F := Ideal) (idblk V c ⟨n + 1, h⟩) (hblk V c ⟨n + 1, h⟩) (outsAt3 (F := Ideal) V c n (Nat.lt_of_succ_lt h))
      = k3_pay2 (F := Ideal) (idblk V c ⟨n + 1, h⟩) (hblk V c ⟨n + 1, h⟩) (chain V c n (Nat.lt_of_succ_lt h))
    rw [outsAt_eq c n (Nat.lt_of_succ_lt h)]

/-! ## The chain at an entry: a sum over the points of a sum over the staged rows -/

/-- Row `n`'s contribution to entry (g, d): feature `d` of row `n` where the row's id is the word `g`, else nothing. -/
def rowTerm (c : Dev nD) (g d : Fin 64) (n : Fin 50000) : EReal :=
  if idarr V c (ix2 n 0) = BitVec.ofNat 32 g.val then (harr V c (ix2 n d) : EReal) else 0

/-- The contribution of point `t`'s 5000 staged rows to entry (g, d). -/
def blockSum (c : Dev nD) (t : Fin cfg3.N) (g d : Fin 64) : EReal :=
  ∑ r : Fin 5000, if idblk V c t (ix2 r 0) = BitVec.ofNat 32 g.val then (hblk V c t (ix2 r d) : EReal) else 0

/-- They are rows `5000·t … 5000·t + 4999` of the arrays. -/
theorem blockSum_eq (c : Dev nD) (t : Fin cfg3.N) (g d : Fin 64) (ht : t.val < 10) :
    blockSum V c t g d = ∑ r : Fin 5000, rowTerm V c g d ⟨5000 * t.val + r.val, by omega⟩ := by
  unfold blockSum rowTerm
  refine Finset.sum_congr rfl fun r _ => ?_
  rw [idblk_apply V c t r (by omega), hblk_apply V c t r d (by omega)]

/-- The zero block reads 0 everywhere. -/
theorem pay1_apply (g d : Fin 64) : (k3_pay1 (F := Ideal) (ix2 g d) : EReal) = 0 := by
  show (Ideal.ofBits .f32 0x00000000#32 : EReal) = 0
  exact Ideal.ofBits_zero_f32

/-- After point `n` entry (g, d) holds the contributions of points 0 … n added up: 0 + x = x at point 0, and each later
    point adds its own to what the point before left. -/
theorem chain_apply (c : Dev nD) (g d : Fin 64) : ∀ (n : ℕ) (h : n < cfg3.N),
    (chain V c n h (ix2 g d) : EReal)
      = ∑ t : Fin (n + 1), blockSum V c ⟨t.val, Nat.lt_of_lt_of_le t.isLt (Nat.succ_le_of_lt h)⟩ g d
  | 0, h => by
    show (k3_pay2 (F := Ideal) (idblk V c ⟨0, h⟩) (hblk V c ⟨0, h⟩) (k3_pay1 (F := Ideal)) (ix2 g d) : EReal) = _
    rw [pay2_apply, pay1_apply, zero_add, Fin.sum_univ_one]
    rfl
  | n + 1, h => by
    show (k3_pay2 (F := Ideal) (idblk V c ⟨n + 1, h⟩) (hblk V c ⟨n + 1, h⟩) (chain V c n (Nat.lt_of_succ_lt h)) (ix2 g d) : EReal) = _
    rw [pay2_apply, chain_apply c g d n (Nat.lt_of_succ_lt h)]
    exact (Fin.sum_univ_castSucc (fun t : Fin (n + 1 + 1) =>
      blockSum V c ⟨t.val, Nat.lt_of_lt_of_le t.isLt (Nat.succ_le_of_lt h)⟩ g d)).symm

/-- A sum over `a · b` rows is the sum over `a` blocks of the sum over each block's `b` rows (an additive commutative
    monoid re-indexes freely). -/
theorem sum_blocks {M : Type*} [AddCommMonoid M] (a b : ℕ) (f : Fin (a * b) → M) :
    ∑ n, f n = ∑ t : Fin a, ∑ r : Fin b, f (finProdFinEquiv (t, r)) := by
  rw [← Equiv.sum_comp finProdFinEquiv f, Fintype.sum_prod_type]

/-- After the last point the block is the pooled sums of the arrays the region was entered with. -/
theorem chain_last (c : Dev nD) (h9 : 9 < cfg3.N) :
    chain V c 9 h9 = Cert.GraphNet.pool (harr V c) (idarr V c) := by
  funext j
  obtain ⟨g, d, rfl⟩ : ∃ (g d : Fin 64), j = ix2 g d := ⟨j 0, j 1, eq_ix2 j⟩
  refine (chain_apply V c g d 9 h9).trans ?_
  show _ = ∑ n : Fin 50000, rowTerm V c g d n
  refine Eq.trans ?_ (sum_blocks 10 5000 (rowTerm V c g d)).symm
  refine Finset.sum_congr rfl fun t _ => ?_
  rw [blockSum_eq V c ⟨t.val, Nat.lt_of_lt_of_le t.isLt (Nat.succ_le_of_lt h9)⟩ g d t.isLt]
  refine Finset.sum_congr rfl fun r _ => congrArg (rowTerm V c g d) (Fin.ext ?_)
  show 5000 * t.val + r.val = r.val + 5000 * t.val
  omega

/-! ## The result array -/

/-- The block after the last point, as contents of the result array (its one block is the whole array). -/
abbrev result (c : Dev nD) : Buf (Elt Ideal) ((c : Thread nD τ).loc main_v41) :=
  chain V c 9 (by rw [show cfg3.N = 10 from N_3]; decide)

/-- The one write-back, at point 9, writes it: block (0, 0) of the [64, 64] array read through zero offsets is the array. -/
theorem flushed_eq (c : Dev nD) (t : Fin cfg3.N) (hf : (cfg3.win 2).flush t = true) :
    (dat3 (F := Ideal) V c).flushed 2 t = ((cfg3.win 2).blk t).view.read (Elt Ideal) (result V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 (F := Ideal) V c).after 2 t3_9) = _
  rw [after3_2, outsAt_eq]
  have hz' : (fun a => win3_2.index t3_9 a * main_v41.ty.shape.size a) = fun _ => 0 := funext fun a => by fin_cases a <;> decide
  exact (Memref.read_access_unit_zero (Elt Ideal) main_v41 hz' (fun a => by rw [congrFun hz' a]; simp) (result V c)).symm

/-- So the result array ends holding the block after point 9: that point's write-back covers the array. -/
theorem final_block (c : Dev nD) : (dat3 (F := Ideal) V c).arrAt 2 cfg3.N = result V c :=
  (dat3 (F := Ideal) V c).arrAt_eq_of_cover 2 (result V c) (flushed_eq V c) fun i =>
    ⟨t3_9, (flush3_2 t3_9).mpr rfl, by
      show i ∈ ((View.whole main_v41).slice (win3_2.rect t3_9)).set
      rw [View.set_slice_whole, Rect.mem_set_unit]
      intro a
      have h0 : (i 0 : Nat) < 64 := (i 0).isLt
      have h1 : (i 1 : Nat) < 64 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 64 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 64 from by decide +kernel]; omega⟩

/-- The pooled sums after the pipeline's run: the per-graph sums of the rows of the array it was entered with. -/
theorem final (c : Dev nD) :
    (dat3 (F := Ideal) V c).arrAt 2 cfg3.N = Cert.GraphNet.pool (V c main_v39) (V c main_v40) := by
  refine (final_block V c).trans ?_
  exact chain_last V c _

end Cert.KernelIdeal.Pool

end
-- ==== Proof.RefLayers.lean ====
/-
  The reference's three layers, read against the shared specification at the ideal instance.
  Each layer is two `dot_general`s (each a sum over the contracted axis), their sum, and the bias broadcast along the
  rows; the first two are followed by the maximum with a zero array.
-/
import proofs.«418541_j1769526526179_1_alg».proof.Proof.RefStages
import proofs.«418541_j1769526526179_1_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.ReferenceIdeal.Stages

open Cert.ReferenceIdeal Cert.ReferenceIdeal.Read

/-- Layer 1 with its rectifier: the specification's layer of the neighbour sums of `x`, `x` itself, the two weight
    matrices and the bias as a row. -/
theorem layer1 (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S3x64, .f32⟩ : BufTy).Contents (Elt Ideal)) (x5 : (⟨S64, .f32⟩ : BufTy).Contents (Elt Ideal)) :
    val_main_v20 (F := Ideal) x0 x1 x3 x4 x5
      = Cert.GraphNet.convRelu 3 (val_main_v13 (F := Ideal) x0 x1) x0 x3 x4 (val_main_v17 (F := Ideal) x5) := by
  funext i
  obtain ⟨n, j, rfl⟩ : ∃ (n : Fin 50000) (j : Fin 64), i = ix2 n j := ⟨i 0, i 1, eq_ix2 i⟩
  rw [val_main_v20_apply, val_main_v19_apply, val_main_v16_apply, val_main_v14_apply, val_main_v15_apply,
    val_main_v18_apply, val_main_call0_v0_apply, val_main_call0_cst_apply]
  generalize val_main_v13 (F := Ideal) x0 x1 = agg
  generalize val_main_v17 (F := Ideal) x5 = b
  have el : ∀ k : Fin 3, lidx_main_v14 (ix2 n j) k = ix2 n k := fun k =>
    funext fun a => Fin.ext (by match a with | ⟨0, _⟩ => rfl | ⟨1, _⟩ => rfl)
  have er : ∀ k : Fin 3, ridx_main_v14 (ix2 n j) k = ix2 k j := fun k =>
    funext fun a => Fin.ext (by match a with | ⟨0, _⟩ => rfl | ⟨1, _⟩ => rfl)
  have el' : ∀ k : Fin 3, lidx_main_v15 (ix2 n j) k = ix2 n k := fun k =>
    funext fun a => Fin.ext (by match a with | ⟨0, _⟩ => rfl | ⟨1, _⟩ => rfl)
  have er' : ∀ k : Fin 3, ridx_main_v15 (ix2 n j) k = ix2 k j := fun k =>
    funext fun a => Fin.ext (by match a with | ⟨0, _⟩ => rfl | ⟨1, _⟩ => rfl)
  have eb : idx_main_v18 (ix2 n j) = ix2 0 j :=
    funext fun a => Fin.ext (by match a with | ⟨0, _⟩ => rfl | ⟨1, _⟩ => rfl)
  simp only [el, er, el', er', eb, Ideal.ofBits_def, Ideal.ofBits_zero_f32, Ideal.maximumf_def, Ideal.addf_def]
  rfl

/-- Layer 2 with its rectifier, over layer 1's result and its neighbour sums. -/
theorem layer2 (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S3x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) :
    val_main_v37 (F := Ideal) x0 x1 x3 x4 x5 x6 x7 x8
      = Cert.GraphNet.convRelu 64 (val_main_v30 (F := Ideal) x0 x1 x3 x4 x5) (val_main_v20 (F := Ideal) x0 x1 x3 x4 x5) x6 x7
          (val_main_v34 (F := Ideal) x8) := by
  funext i
  obtain ⟨n, j, rfl⟩ : ∃ (n : Fin 50000) (j : Fin 64), i = ix2 n j := ⟨i 0, i 1, eq_ix2 i⟩
  rw [val_main_v37_apply, val_main_v36_apply, val_main_v33_apply, val_main_v31_apply, val_main_v32_apply,
    val_main_v35_apply, val_main_call1_v0_apply, val_main_call1_cst_apply]
  generalize val_main_v30 (F := Ideal) x0 x1 x3 x4 x5 = agg
  generalize val_main_v20 (F := Ideal) x0 x1 x3 x4 x5 = h
  generalize val_main_v34 (F := Ideal) x8 = b
  have el : ∀ k : Fin 64, lidx_main_v31 (ix2 n j) k = ix2 n k := fun k =>
    funext fun a => Fin.ext (by match a with | ⟨0, _⟩ => rfl | ⟨1, _⟩ => rfl)
  have er : ∀ k : Fin 64, ridx_main_v31 (ix2 n j) k = ix2 k j := fun k =>
    funext fun a => Fin.ext (by match a with | ⟨0, _⟩ => rfl | ⟨1, _⟩ => rfl)
  have el' : ∀ k : Fin 64, lidx_main_v32 (ix2 n j) k = ix2 n k := fun k =>
    funext fun a => Fin.ext (by match a with | ⟨0, _⟩ => rfl | ⟨1, _⟩ => rfl)
  have er' : ∀ k : Fin 64, ridx_main_v32 (ix2 n j) k = ix2 k j := fun k =>
    funext fun a => Fin.ext (by match a with | ⟨0, _⟩ => rfl | ⟨1, _⟩ => rfl)
  have eb : idx_main_v35 (ix2 n j) = ix2 0 j :=
    funext fun a => Fin.ext (by match a with | ⟨0, _⟩ => rfl | ⟨1, _⟩ => rfl)
  simp only [el, er, el', er', eb, Ideal.ofBits_def, Ideal.ofBits_zero_f32, Ideal.maximumf_def, Ideal.addf_def]
  rfl

/-- Layer 3, without rectifier, over layer 2's result and its neighbour sums. -/
theorem layer3 (x0 : (⟨S50000x3, .f32⟩ : BufTy).Contents (Elt Ideal)) (x1 : (⟨S2x800000, .i32⟩ : BufTy).Contents (Elt Ideal)) (x3 : (⟨S3x64, .f32⟩ : BufTy).Contents (Elt Ideal)) (x4 : (⟨S3x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64x64, .f32⟩ : BufTy).Contents (Elt Ideal)) (x11 : (⟨S64, .f32⟩ : BufTy).Contents (Elt Ideal)) :
    val_main_v53 (F := Ideal) x0 x1 x3 x4 x5 x6 x7 x8 x9 x10 x11
      = Cert.GraphNet.conv 64 (val_main_v47 (F := Ideal) x0 x1 x3 x4 x5 x6 x7 x8) (val_main_v37 (F := Ideal) x0 x1 x3 x4 x5 x6 x7 x8) x9 x10
          (val_main_v51 (F := Ideal) x11) := by
  funext i
  obtain ⟨n, j, rfl⟩ : ∃ (n : Fin 50000) (j : Fin 64), i = ix2 n j := ⟨i 0, i 1, eq_ix2 i⟩
  rw [val_main_v53_apply, val_main_v50_apply, val_main_v48_apply, val_main_v49_apply, val_main_v52_apply]
  generalize val_main_v47 (F := Ideal) x0 x1 x3 x4 x5 x6 x7 x8 = agg
  generalize val_main_v37 (F := Ideal) x0 x1 x3 x4 x5 x6 x7 x8 = h
  generalize val_main_v51 (F := Ideal) x11 = b
  have el : ∀ k : Fin 64, lidx_main_v48 (ix2 n j) k = ix2 n k := fun k =>
    funext fun a => Fin.ext (by match a with | ⟨0, _⟩ => rfl | ⟨1, _⟩ => rfl)
  have er : ∀ k : Fin 64, ridx_main_v48 (ix2 n j) k = ix2 k j := fun k =>
    funext fun a => Fin.ext (by match a with | ⟨0, _⟩ => rfl | ⟨1, _⟩ => rfl)
  have el' : ∀ k : Fin 64, lidx_main_v49 (ix2 n j) k = ix2 n k := fun k =>
    funext fun a => Fin.ext (by match a with | ⟨0, _⟩ => rfl | ⟨1, _⟩ => rfl)
  have er' : ∀ k : Fin 64, ridx_main_v49 (ix2 n j) k = ix2 k j := fun k =>
    funext fun a => Fin.ext (by match a with | ⟨0, _⟩ => rfl | ⟨1, _⟩ => rfl)
  have eb : idx_main_v52 (ix2 n j) = ix2 0 j :=
    funext fun a => Fin.ext (by match a with | ⟨0, _⟩ => rfl | ⟨1, _⟩ => rfl)
  simp only [el, er, el', er', eb, Ideal.addf_def]
  rfl

end Cert.ReferenceIdeal.Stages

end
-- ==== Proof.LibScatterAddRows.lean ====
/-
  The accumulating scatter of whole rows: operand [G, D], start indices [n, 1], updates [n, D]; the updates' axis 1 is
  the window axis and runs along the operand's axis 1, the operand's axis 0 is inserted and named by the one component
  of the index vector. Update (j, d) lands on (g, d') exactly when d' = d and start index j, read signed, is g; a start
  index outside [0, G) lands nowhere. So the scatter-add read at (g, d) is the operand there plus the sum of the updates
  (j, d) over the rows j whose start index is g.
-/
import Idealize.ShloMosaic.PureOps.Ideal
import Idealize.ShloMosaic.Lib.ValueIdx

noncomputable section

open scoped BigOperators

namespace Cert.LibScatterAddRows

open Idealize.ShloMosaic Idealize.ShloMosaic.ValueIdx

/-- The dimension numbers of a scatter of whole rows into a rank-2 operand, one row of updates per start index. -/
abbrev rowsDims (G D n : Nat) (wf : ScatterDims.WF ⟨2, ![G, D]⟩ ⟨2, ![n, 1]⟩ ⟨2, ![n, D]⟩ [1] [0] [0] 1) :
    ScatterDims ⟨2, ![G, D]⟩ ⟨2, ![n, 1]⟩ ⟨2, ![n, D]⟩ where
  updateWindowDims := [1]
  insertedWindowDims := [0]
  scatterDimsToOperandDims := [0]
  indexVectorDim := 1
  wf := wf

/-- THE START ON THE INSERTED AXIS: operand axis 0 is named by the map, so the window of update (j, ·) starts at the
    signed reading of start index j. -/
theorem rows_start0 {G D n w : Nat} (wf : ScatterDims.WF ⟨2, ![G, D]⟩ ⟨2, ![n, 1]⟩ ⟨2, ![n, D]⟩ [1] [0] [0] 1)
    (j : (⟨2, ![n, D]⟩ : Shape).Idx) (idx : IVec ⟨2, ![n, 1]⟩ w) :
    (rowsDims G D n wf).start j idx (0 : Fin 2) = (idx (ix2 (j 0) (0 : Fin 1))).toInt := by
  unfold ScatterDims.start
  rw [dif_pos (show (0 : Fin 2) ∈ (rowsDims G D n wf).scatterDimsToOperandDims from List.mem_singleton.mpr rfl)]
  have hsi : (rowsDims G D n wf).siIdx j ⟨List.idxOf (0 : Fin 2) (rowsDims G D n wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- THE START ON THE KEPT AXIS: operand axis 1 is not named by the map, so the window starts at 0 there. -/
theorem rows_start1 {G D n w : Nat} (wf : ScatterDims.WF ⟨2, ![G, D]⟩ ⟨2, ![n, 1]⟩ ⟨2, ![n, D]⟩ [1] [0] [0] 1)
    (j : (⟨2, ![n, D]⟩ : Shape).Idx) (idx : IVec ⟨2, ![n, 1]⟩ w) :
    (rowsDims G D n wf).start j idx (1 : Fin 2) = 0 := by
  unfold ScatterDims.start
  rw [dif_neg (show (1 : Fin 2) ∉ (rowsDims G D n wf).scatterDimsToOperandDims from
    (show (1 : Fin 2) ∉ ([0] : List (Fin 2)) by decide))]

/-- THE WINDOW COORDINATE ON THE INSERTED AXIS is 0. -/
theorem rows_window0 {G D n : Nat} (wf : ScatterDims.WF ⟨2, ![G, D]⟩ ⟨2, ![n, 1]⟩ ⟨2, ![n, D]⟩ [1] [0] [0] 1)
    (j : (⟨2, ![n, D]⟩ : Shape).Idx) :
    (rowsDims G D n wf).window j (0 : Fin 2) = 0 := by
  unfold ScatterDims.window
  rw [dif_neg (show (0 : Fin 2) ∉ (rowsDims G D n wf).sKept from
    (show (0 : Fin 2) ∉ (List.finRange 2).filter (fun a => a ∉ ([0] : List (Fin 2))) by decide))]

/-- THE WINDOW COORDINATE ON THE KEPT AXIS is the update index's coordinate on its window axis. -/
theorem rows_window1 {G D n : Nat} (wf : ScatterDims.WF ⟨2, ![G, D]⟩ ⟨2, ![n, 1]⟩ ⟨2, ![n, D]⟩ [1] [0] [0] 1)
    (j : (⟨2, ![n, D]⟩ : Shape).Idx) :
    (rowsDims G D n wf).window j (1 : Fin 2) = (j 1).val := by
  unfold ScatterDims.window
  rw [dif_pos (show (1 : Fin 2) ∈ (rowsDims G D n wf).sKept from
    (show (1 : Fin 2) ∈ (List.finRange 2).filter (fun a => a ∉ ([0] : List (Fin 2))) by decide))]
  rfl

/-- WHERE AN UPDATE LANDS: update (j, d') lands on (g, d) exactly when start index j, read signed, is g and d' = d. -/
theorem rows_resultIdx_iff {G D n w : Nat} (wf : ScatterDims.WF ⟨2, ![G, D]⟩ ⟨2, ![n, 1]⟩ ⟨2, ![n, D]⟩ [1] [0] [0] 1)
    (idx : IVec ⟨2, ![n, 1]⟩ w) (j : Fin n) (d' : Fin D) (g : Fin G) (d : Fin D) :
    (rowsDims G D n wf).resultIdx? (ix2 j d') idx = some (ix2 g d)
      ↔ (idx (ix2 j (0 : Fin 1))).toInt = (g.val : ℤ) ∧ d' = d := by
  have hs0 := rows_start0 wf (ix2 j d') idx
  have hs1 := rows_start1 wf (ix2 j d') idx
  have hw0 := rows_window0 wf (ix2 j d')
  have hw1 := rows_window1 wf (ix2 j d')
  have hj0 : (ix2 j d' : (⟨2, ![n, D]⟩ : Shape).Idx) 0 = j := rfl
  have hj1 : ((ix2 j d' : (⟨2, ![n, D]⟩ : Shape).Idx) 1).val = d'.val := rfl
  rw [hj0] at hs0
  rw [hj1] at hw1
  have hg := g.isLt
  have hd' := d'.isLt
  unfold ScatterDims.resultIdx?
  split
  · rename_i h
    constructor
    · intro he
      have he' := Option.some.inj he
      have e0 := congrArg Fin.val (congrFun he' (0 : Fin 2))
      have e1 := congrArg Fin.val (congrFun he' (1 : Fin 2))
      have h0 := (h (0 : Fin 2)).1
      simp only [hs0, hs1, hw0, hw1] at e0 e1 h0
      have e0' : ((idx (ix2 j (0 : Fin 1))).toInt + ((0 : ℕ) : ℤ)).toNat = g.val := e0
      have e1' : ((0 : ℤ) + (d'.val : ℤ)).toNat = d.val := e1
      refine ⟨by omega, Fin.ext (by omega)⟩
    · rintro ⟨h1, h2⟩
      subst h2
      congr 1
      funext a
      refine Fin.ext ?_
      match a with
      | ⟨0, _⟩ =>
        show ((rowsDims G D n wf).start (ix2 j d') idx (0 : Fin 2) + ((rowsDims G D n wf).window (ix2 j d') (0 : Fin 2) : ℤ)).toNat = g.val
        rw [hs0, hw0, h1]; omega
      | ⟨1, _⟩ =>
        show ((rowsDims G D n wf).start (ix2 j d') idx (1 : Fin 2) + ((rowsDims G D n wf).window (ix2 j d') (1 : Fin 2) : ℤ)).toNat = d'.val
        rw [hs1, hw1]; omega
  · rename_i h
    constructor
    · intro he; exact absurd he (by simp)
    · rintro ⟨h1, h2⟩
      exfalso
      apply h
      intro a
      match a with
      | ⟨0, _⟩ =>
        show 0 ≤ (rowsDims G D n wf).start (ix2 j d') idx (0 : Fin 2) + ((rowsDims G D n wf).window (ix2 j d') (0 : Fin 2) : ℤ) ∧
          (rowsDims G D n wf).start (ix2 j d') idx (0 : Fin 2) + ((rowsDims G D n wf).window (ix2 j d') (0 : Fin 2) : ℤ) < (G : ℤ)
        rw [hs0, hw0, h1]; omega
      | ⟨1, _⟩ =>
        show 0 ≤ (rowsDims G D n wf).start (ix2 j d') idx (1 : Fin 2) + ((rowsDims G D n wf).window (ix2 j d') (1 : Fin 2) : ℤ) ∧
          (rowsDims G D n wf).start (ix2 j d') idx (1 : Fin 2) + ((rowsDims G D n wf).window (ix2 j d') (1 : Fin 2) : ℤ) < (D : ℤ)
        rw [hs1, hw1]; omega

/-- THE ROW SCATTER-ADD READ AT (g, d): the operand there plus the sum, over the rows whose start index is g, of the
    updates' entry d. -/
theorem scatterAdd_rows_apply {G D n w : Nat} {φ : FTy} (wf : ScatterDims.WF ⟨2, ![G, D]⟩ ⟨2, ![n, 1]⟩ ⟨2, ![n, D]⟩ [1] [0] [0] 1)
    (x : FVec Ideal ⟨2, ![G, D]⟩ φ) (idx : IVec ⟨2, ![n, 1]⟩ w) (upd : FVec Ideal ⟨2, ![n, D]⟩ φ) (g : Fin G) (d : Fin D) :
    Host.scatterAdd (rowsDims G D n wf) x idx upd (ix2 g d)
      = x (ix2 g d) + ∑ j ∈ Finset.univ.filter (fun j : Fin n => (idx (ix2 j (0 : Fin 1))).toInt = (g.val : ℤ)), upd (ix2 j d) := by
  unfold Host.scatterAdd
  rw [Ideal.hostScatterAdd_def]
  unfold Ideal.hostScatterAdd
  congr 1
  rw [Finset.sum_filter, sum_idx2, Finset.sum_filter]
  refine Finset.sum_congr rfl fun j _ => ?_
  simp only [rows_resultIdx_iff]
  by_cases hj : (idx (ix2 j (0 : Fin 1))).toInt = (g.val : ℤ)
  · simp [hj]
  · simp [hj]

end Cert.LibScatterAddRows

end
-- ==== Proof.RefPool.lean ====
/-
  The reference's pooling, read against the shared specification at the ideal instance: a scatter-add of whole rows into
  a zero array by graph id. Entry (g, d) is zero plus the sum of row n's entry d over the rows whose id, read signed, is
  g — which for g below 64 is the rows whose id word is g.
-/
import proofs.«418541_j1769526526179_1_alg».proof.Proof.RefStages
import proofs.«418541_j1769526526179_1_alg».proof.Proof.Spec
import proofs.«418541_j1769526526179_1_alg».proof.Proof.LibScatterAddRows
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.ReferenceIdeal.Stages

open Cert.ReferenceIdeal Cert.ReferenceIdeal.Read

/-- A 32-bit word read signed is the natural number g, g below 2^31, exactly when it is the word g. -/
theorem toInt_eq_natCast_iff (b : BitVec 32) (g : Nat) (hg : g < 2 ^ 31) :
    b.toInt = (g : ℤ) ↔ b = BitVec.ofNat 32 g := by
  have hb := b.isLt
  have hmod : g % 2 ^ 32 = g := Nat.mod_eq_of_lt (by omega)
  constructor
  · intro h
    apply BitVec.eq_of_toNat_eq
    rw [BitVec.toNat_ofNat, hmod]
    rw [BitVec.toInt_eq_toNat_cond] at h
    split at h <;> omega
  · rintro rfl
    rw [BitVec.toInt_eq_toNat_cond, BitVec.toNat_ofNat, hmod]
    split <;> omega

/-- The pooled sums: the scatter-add of layer 3's rows into a zero array by graph id is the specification's per-graph sum. -/
theorem pooled (x0 : (⟨S50000x3, .f32⟩ : BufTy).Contents (Elt Ideal)) (x1 : (⟨S2x800000, .i32⟩ : BufTy).Contents (Elt Ideal)) (x2 : (⟨S50000, .i32⟩ : BufTy).Contents (Elt Ideal)) (x3 : (⟨S3x64, .f32⟩ : BufTy).Contents (Elt Ideal)) (x4 : (⟨S3x64, .f32⟩ : BufTy).Contents (Elt Ideal)) (x5 : (⟨S64, .f32⟩ : BufTy).Contents (Elt Ideal)) (x6 : (⟨S64x64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64x64, .f32⟩ : BufTy).Contents (Elt Ideal)) (x11 : (⟨S64, .f32⟩ : BufTy).Contents (Elt Ideal)) :
    val_main_v56 (F := Ideal) x0 x1 x2 x3 x4 x5 x6 x7 x8 x9 x10 x11
      = Cert.GraphNet.pool (val_main_v53 (F := Ideal) x0 x1 x3 x4 x5 x6 x7 x8 x9 x10 x11) (val_main_v55 (F := Ideal) x2) := by
  unfold val_main_v56
  generalize val_main_v53 (F := Ideal) x0 x1 x3 x4 x5 x6 x7 x8 x9 x10 x11 = h
  generalize val_main_v55 (F := Ideal) x2 = ids
  funext i
  obtain ⟨g, d, rfl⟩ : ∃ (g d : Fin 64), i = ix2 g d := ⟨i 0, i 1, eq_ix2 i⟩
  refine (Cert.LibScatterAddRows.scatterAdd_rows_apply scatter_S64x64_S50000x1_S50000x64_1_0_0_1.wf
    (val_main_v54 (F := Ideal)) ids h g d).trans ?_
  rw [val_main_v54_apply, val_main_cst_7_apply]
  show Ideal.ofBits .f32 0x00000000#32 + _
    = ∑ n : Fin 50000, if ids (ix2 n (0 : Fin 1)) = BitVec.ofNat 32 g.val then h (ix2 n d) else 0
  rw [Ideal.ofBits_zero_f32, zero_add, Finset.sum_filter]
  refine Finset.sum_congr rfl fun n _ => ?_
  have hiff := toInt_eq_natCast_iff (ids (ix2 n (0 : Fin 1))) g.val (by have := g.isLt; omega)
  by_cases hc : ids (ix2 n (0 : Fin 1)) = BitVec.ofNat 32 g.val
  · rw [if_pos hc, if_pos (hiff.mpr hc)]
  · rw [if_neg hc, if_neg (fun e => hc (hiff.mp e))]

end Cert.ReferenceIdeal.Stages

end
-- ==== Proof.KFoldBase.lean ====
/- Bookkeeping for the kernel program's run: a buffer that no host operation and no pallas_call between two boundaries
  writes holds at the later boundary what it held at the earlier one. A pallas_call leaves its input arrays as it found
  them and touches no array outside its windows; a stretch of host operations writes only its own results. So the two
  node-id arrays computed at the start, each layer's features once written, and every argument are read unchanged
  wherever a later operation reads them. The script holds a table of which buffer is read at which boundary; every case
  is the same chain of the three step forms (a stretch that does not write the buffer; a call whose window the buffer
  is not; a call whose input window it is).
-/
import proofs.«418541_j1769526526179_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen

variable (m : (ℓ : Loc nD τ sig) → Buf (Elt Ideal) ℓ) (ρ : Dev nD → PrngReg)

/-- The source-node ids are untouched by the first pallas_call. -/
theorem src_W2 (c : Dev nD) : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

/-- The destination-node ids are untouched by the first pallas_call. -/
theorem dst_W2 (c : Dev nD) : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

/-- The source-node ids are untouched up to the second pallas_call's exit. -/
theorem src_W4 (c : Dev nD) : W4 m ρ c (Proc.devRef .tc main_v1) = W1 m ρ c (Proc.devRef .tc main_v1) :=
  calc W4 m ρ c (Proc.devRef .tc main_v1)
    _ = W3 m ρ c (Proc.devRef .tc main_v1) := (W4_of_ne m ρ c main_v1 (by decide))
    _ = W2 m ρ c (Proc.devRef .tc main_v1) := (by show StableHlo.after hostOps1 (W2 m ρ c) (Proc.devRef .tc main_v1) = _; after_results_simp)
    _ = W1 m ρ c (Proc.devRef .tc main_v1) := (W2_of_ne m ρ c main_v1 (by decide))

/-- The destination-node ids are untouched up to the second pallas_call's exit. -/
theorem dst_W4 (c : Dev nD) : W4 m ρ c (Proc.devRef .tc main_v3) = W1 m ρ c (Proc.devRef .tc main_v3) :=
  calc W4 m ρ c (Proc.devRef .tc main_v3)
    _ = W3 m ρ c (Proc.devRef .tc main_v3) := (W4_of_ne m ρ c main_v3 (by decide))
    _ = W2 m ρ c (Proc.devRef .tc main_v3) := (by show StableHlo.after hostOps1 (W2 m ρ c) (Proc.devRef .tc main_v3) = _; after_results_simp)
    _ = W1 m ρ c (Proc.devRef .tc main_v3) := (W2_of_ne m ρ c main_v3 (by decide))

/-- Argument 0 is as launched at boundary 1: nothing before it writes an argument. -/
theorem arg0_W1 (c : Dev nD) : W1 m ρ c (Proc.devRef .tc main_arg0) = m ((c.tc : Thread nD τ).loc main_arg0) :=
  calc W1 m ρ c (Proc.devRef .tc main_arg0)
    _ = W0 m ρ c (Proc.devRef .tc main_arg0) := (by show StableHlo.after hostOps0 (W0 m ρ c) (Proc.devRef .tc main_arg0) = _; after_results_simp)
    _ = m ((c.tc : Thread nD τ).loc main_arg0) := rfl

/-- Argument 3 is as launched at boundary 1: nothing before it writes an argument. -/
theorem arg3_W1 (c : Dev nD) : W1 m ρ c (Proc.devRef .tc main_arg3) = m ((c.tc : Thread nD τ).loc main_arg3) :=
  calc W1 m ρ c (Proc.devRef .tc main_arg3)
    _ = W0 m ρ c (Proc.devRef .tc main_arg3) := (by show StableHlo.after hostOps0 (W0 m ρ c) (Proc.devRef .tc main_arg3) = _; after_results_simp)
    _ = m ((c.tc : Thread nD τ).loc main_arg3) := rfl

/-- Argument 4 is as launched at boundary 1: nothing before it writes an argument. -/
theorem arg4_W1 (c : Dev nD) : W1 m ρ c (Proc.devRef .tc main_arg4) = m ((c.tc : Thread nD τ).loc main_arg4) :=
  calc W1 m ρ c (Proc.devRef .tc main_arg4)
    _ = W0 m ρ c (Proc.devRef .tc main_arg4) := (by show StableHlo.after hostOps0 (W0 m ρ c) (Proc.devRef .tc main_arg4) = _; after_results_simp)
    _ = m ((c.tc : Thread nD τ).loc main_arg4) := rfl

/-- Argument 6 is as launched at boundary 3: nothing before it writes an argument. -/
theorem arg6_W3 (c : Dev nD) : W3 m ρ c (Proc.devRef .tc main_arg6) = m ((c.tc : Thread nD τ).loc main_arg6) :=
  calc W3 m ρ c (Proc.devRef .tc main_arg6)
    _ = W2 m ρ c (Proc.devRef .tc main_arg6) := (by show StableHlo.after hostOps1 (W2 m ρ c) (Proc.devRef .tc main_arg6) = _; after_results_simp)
    _ = W1 m ρ c (Proc.devRef .tc main_arg6) := (W2_of_ne m ρ c main_arg6 (by decide))
    _ = W0 m ρ c (Proc.devRef .tc main_arg6) := (by show StableHlo.after hostOps0 (W0 m ρ c) (Proc.devRef .tc main_arg6) = _; after_results_simp)
    _ = m ((c.tc : Thread nD τ).loc main_arg6) := rfl

/-- Argument 7 is as launched at boundary 3: nothing before it writes an argument. -/
theorem arg7_W3 (c : Dev nD) : W3 m ρ c (Proc.devRef .tc main_arg7) = m ((c.tc : Thread nD τ).loc main_arg7) :=
  calc W3 m ρ c (Proc.devRef .tc main_arg7)
    _ = W2 m ρ c (Proc.devRef .tc main_arg7) := (by show StableHlo.after hostOps1 (W2 m ρ c) (Proc.devRef .tc main_arg7) = _; after_results_simp)
    _ = W1 m ρ c (Proc.devRef .tc main_arg7) := (W2_of_ne m ρ c main_arg7 (by decide))
    _ = W0 m ρ c (Proc.devRef .tc main_arg7) := (by show StableHlo.after hostOps0 (W0 m ρ c) (Proc.devRef .tc main_arg7) = _; after_results_simp)
    _ = m ((c.tc : Thread nD τ).loc main_arg7) := rfl

/-- Argument 8 is as launched at boundary 2: nothing before it writes an argument. -/
theorem arg8_W2 (c : Dev nD) : W2 m ρ c (Proc.devRef .tc main_arg8) = m ((c.tc : Thread nD τ).loc main_arg8) :=
  calc W2 m ρ c (Proc.devRef .tc main_arg8)
    _ = W1 m ρ c (Proc.devRef .tc main_arg8) := (W2_of_ne m ρ c main_arg8 (by decide))
    _ = W0 m ρ c (Proc.devRef .tc main_arg8) := (by show StableHlo.after hostOps0 (W0 m ρ c) (Proc.devRef .tc main_arg8) = _; after_results_simp)
    _ = m ((c.tc : Thread nD τ).loc main_arg8) := rfl

/-- Argument 9 is as launched at boundary 5: nothing before it writes an argument. -/
theorem arg9_W5 (c : Dev nD) : W5 m ρ c (Proc.devRef .tc main_arg9) = m ((c.tc : Thread nD τ).loc main_arg9) :=
  calc W5 m ρ c (Proc.devRef .tc main_arg9)
    _ = W4 m ρ c (Proc.devRef .tc main_arg9) := (by show StableHlo.after hostOps2 (W4 m ρ c) (Proc.devRef .tc main_arg9) = _; after_results_simp)
    _ = W3 m ρ c (Proc.devRef .tc main_arg9) := (W4_of_ne m ρ c main_arg9 (by decide))
    _ = W2 m ρ c (Proc.devRef .tc main_arg9) := (by show StableHlo.after hostOps1 (W2 m ρ c) (Proc.devRef .tc main_arg9) = _; after_results_simp)
    _ = W1 m ρ c (Proc.devRef .tc main_arg9) := (W2_of_ne m ρ c main_arg9 (by decide))
    _ = W0 m ρ c (Proc.devRef .tc main_arg9) := (by show StableHlo.after hostOps0 (W0 m ρ c) (Proc.devRef .tc main_arg9) = _; after_results_simp)
    _ = m ((c.tc : Thread nD τ).loc main_arg9) := rfl

/-- Argument 10 is as launched at boundary 5: nothing before it writes an argument. -/
theorem arg10_W5 (c : Dev nD) : W5 m ρ c (Proc.devRef .tc main_arg10) = m ((c.tc : Thread nD τ).loc main_arg10) :=
  calc W5 m ρ c (Proc.devRef .tc main_arg10)
    _ = W4 m ρ c (Proc.devRef .tc main_arg10) := (by show StableHlo.after hostOps2 (W4 m ρ c) (Proc.devRef .tc main_arg10) = _; after_results_simp)
    _ = W3 m ρ c (Proc.devRef .tc main_arg10) := (W4_of_ne m ρ c main_arg10 (by decide))
    _ = W2 m ρ c (Proc.devRef .tc main_arg10) := (by show StableHlo.after hostOps1 (W2 m ρ c) (Proc.devRef .tc main_arg10) = _; after_results_simp)
    _ = W1 m ρ c (Proc.devRef .tc main_arg10) := (W2_of_ne m ρ c main_arg10 (by decide))
    _ = W0 m ρ c (Proc.devRef .tc main_arg10) := (by show StableHlo.after hostOps0 (W0 m ρ c) (Proc.devRef .tc main_arg10) = _; after_results_simp)
    _ = m ((c.tc : Thread nD τ).loc main_arg10) := rfl

/-- Argument 11 is as launched at boundary 4: nothing before it writes an argument. -/
theorem arg11_W4 (c : Dev nD) : W4 m ρ c (Proc.devRef .tc main_arg11) = m ((c.tc : Thread nD τ).loc main_arg11) :=
  calc W4 m ρ c (Proc.devRef .tc main_arg11)
    _ = W3 m ρ c (Proc.devRef .tc main_arg11) := (W4_of_ne m ρ c main_arg11 (by decide))
    _ = W2 m ρ c (Proc.devRef .tc main_arg11) := (by show StableHlo.after hostOps1 (W2 m ρ c) (Proc.devRef .tc main_arg11) = _; after_results_simp)
    _ = W1 m ρ c (Proc.devRef .tc main_arg11) := (W2_of_ne m ρ c main_arg11 (by decide))
    _ = W0 m ρ c (Proc.devRef .tc main_arg11) := (by show StableHlo.after hostOps0 (W0 m ρ c) (Proc.devRef .tc main_arg11) = _; after_results_simp)
    _ = m ((c.tc : Thread nD τ).loc main_arg11) := rfl

/-- Argument 2 is as launched at boundary 6: nothing before it writes an argument. -/
theorem arg2_W6 (c : Dev nD) : W6 m ρ c (Proc.devRef .tc main_arg2) = m ((c.tc : Thread nD τ).loc main_arg2) :=
  calc W6 m ρ c (Proc.devRef .tc main_arg2)
    _ = W5 m ρ c (Proc.devRef .tc main_arg2) := (W6_of_ne m ρ c main_arg2 (by decide))
    _ = W4 m ρ c (Proc.devRef .tc main_arg2) := (by show StableHlo.after hostOps2 (W4 m ρ c) (Proc.devRef .tc main_arg2) = _; after_results_simp)
    _ = W3 m ρ c (Proc.devRef .tc main_arg2) := (W4_of_ne m ρ c main_arg2 (by decide))
    _ = W2 m ρ c (Proc.devRef .tc main_arg2) := (by show StableHlo.after hostOps1 (W2 m ρ c) (Proc.devRef .tc main_arg2) = _; after_results_simp)
    _ = W1 m ρ c (Proc.devRef .tc main_arg2) := (W2_of_ne m ρ c main_arg2 (by decide))
    _ = W0 m ρ c (Proc.devRef .tc main_arg2) := (by show StableHlo.after hostOps0 (W0 m ρ c) (Proc.devRef .tc main_arg2) = _; after_results_simp)
    _ = m ((c.tc : Thread nD τ).loc main_arg2) := rfl

/-- Argument 2 is as launched at boundary 8: nothing before it writes an argument. -/
theorem arg2_W8 (c : Dev nD) : W8 m ρ c (Proc.devRef .tc main_arg2) = m ((c.tc : Thread nD τ).loc main_arg2) :=
  calc W8 m ρ c (Proc.devRef .tc main_arg2)
    _ = W7 m ρ c (Proc.devRef .tc main_arg2) := (W8_of_ne m ρ c main_arg2 (by decide))
    _ = W6 m ρ c (Proc.devRef .tc main_arg2) := (by show StableHlo.after hostOps3 (W6 m ρ c) (Proc.devRef .tc main_arg2) = _; after_results_simp)
    _ = W5 m ρ c (Proc.devRef .tc main_arg2) := (W6_of_ne m ρ c main_arg2 (by decide))
    _ = W4 m ρ c (Proc.devRef .tc main_arg2) := (by show StableHlo.after hostOps2 (W4 m ρ c) (Proc.devRef .tc main_arg2) = _; after_results_simp)
    _ = W3 m ρ c (Proc.devRef .tc main_arg2) := (W4_of_ne m ρ c main_arg2 (by decide))
    _ = W2 m ρ c (Proc.devRef .tc main_arg2) := (by show StableHlo.after hostOps1 (W2 m ρ c) (Proc.devRef .tc main_arg2) = _; after_results_simp)
    _ = W1 m ρ c (Proc.devRef .tc main_arg2) := (W2_of_ne m ρ c main_arg2 (by decide))
    _ = W0 m ρ c (Proc.devRef .tc main_arg2) := (by show StableHlo.after hostOps0 (W0 m ρ c) (Proc.devRef .tc main_arg2) = _; after_results_simp)
    _ = m ((c.tc : Thread nD τ).loc main_arg2) := rfl

/-- Argument 12 is as launched at boundary 8: nothing before it writes an argument. -/
theorem arg12_W8 (c : Dev nD) : W8 m ρ c (Proc.devRef .tc main_arg12) = m ((c.tc : Thread nD τ).loc main_arg12) :=
  calc W8 m ρ c (Proc.devRef .tc main_arg12)
    _ = W7 m ρ c (Proc.devRef .tc main_arg12) := (W8_of_ne m ρ c main_arg12 (by decide))
    _ = W6 m ρ c (Proc.devRef .tc main_arg12) := (by show StableHlo.after hostOps3 (W6 m ρ c) (Proc.devRef .tc main_arg12) = _; after_results_simp)
    _ = W5 m ρ c (Proc.devRef .tc main_arg12) := (W6_of_ne m ρ c main_arg12 (by decide))
    _ = W4 m ρ c (Proc.devRef .tc main_arg12) := (by show StableHlo.after hostOps2 (W4 m ρ c) (Proc.devRef .tc main_arg12) = _; after_results_simp)
    _ = W3 m ρ c (Proc.devRef .tc main_arg12) := (W4_of_ne m ρ c main_arg12 (by decide))
    _ = W2 m ρ c (Proc.devRef .tc main_arg12) := (by show StableHlo.after hostOps1 (W2 m ρ c) (Proc.devRef .tc main_arg12) = _; after_results_simp)
    _ = W1 m ρ c (Proc.devRef .tc main_arg12) := (W2_of_ne m ρ c main_arg12 (by decide))
    _ = W0 m ρ c (Proc.devRef .tc main_arg12) := (by show StableHlo.after hostOps0 (W0 m ρ c) (Proc.devRef .tc main_arg12) = _; after_results_simp)
    _ = m ((c.tc : Thread nD τ).loc main_arg12) := rfl

/-- Argument 13 is as launched at boundary 8: nothing before it writes an argument. -/
theorem arg13_W8 (c : Dev nD) : W8 m ρ c (Proc.devRef .tc main_arg13) = m ((c.tc : Thread nD τ).loc main_arg13) :=
  calc W8 m ρ c (Proc.devRef .tc main_arg13)
    _ = W7 m ρ c (Proc.devRef .tc main_arg13) := (W8_of_ne m ρ c main_arg13 (by decide))
    _ = W6 m ρ c (Proc.devRef .tc main_arg13) := (by show StableHlo.after hostOps3 (W6 m ρ c) (Proc.devRef .tc main_arg13) = _; after_results_simp)
    _ = W5 m ρ c (Proc.devRef .tc main_arg13) := (W6_of_ne m ρ c main_arg13 (by decide))
    _ = W4 m ρ c (Proc.devRef .tc main_arg13) := (by show StableHlo.after hostOps2 (W4 m ρ c) (Proc.devRef .tc main_arg13) = _; after_results_simp)
    _ = W3 m ρ c (Proc.devRef .tc main_arg13) := (W4_of_ne m ρ c main_arg13 (by decide))
    _ = W2 m ρ c (Proc.devRef .tc main_arg13) := (by show StableHlo.after hostOps1 (W2 m ρ c) (Proc.devRef .tc main_arg13) = _; after_results_simp)
    _ = W1 m ρ c (Proc.devRef .tc main_arg13) := (W2_of_ne m ρ c main_arg13 (by decide))
    _ = W0 m ρ c (Proc.devRef .tc main_arg13) := (by show StableHlo.after hostOps0 (W0 m ρ c) (Proc.devRef .tc main_arg13) = _; after_results_simp)
    _ = m ((c.tc : Thread nD τ).loc main_arg13) := rfl

/-- Argument 14 is as launched at boundary 8: nothing before it writes an argument. -/
theorem arg14_W8 (c : Dev nD) : W8 m ρ c (Proc.devRef .tc main_arg14) = m ((c.tc : Thread nD τ).loc main_arg14) :=
  calc W8 m ρ c (Proc.devRef .tc main_arg14)
    _ = W7 m ρ c (Proc.devRef .tc main_arg14) := (W8_of_ne m ρ c main_arg14 (by decide))
    _ = W6 m ρ c (Proc.devRef .tc main_arg14) := (by show StableHlo.after hostOps3 (W6 m ρ c) (Proc.devRef .tc main_arg14) = _; after_results_simp)
    _ = W5 m ρ c (Proc.devRef .tc main_arg14) := (W6_of_ne m ρ c main_arg14 (by decide))
    _ = W4 m ρ c (Proc.devRef .tc main_arg14) := (by show StableHlo.after hostOps2 (W4 m ρ c) (Proc.devRef .tc main_arg14) = _; after_results_simp)
    _ = W3 m ρ c (Proc.devRef .tc main_arg14) := (W4_of_ne m ρ c main_arg14 (by decide))
    _ = W2 m ρ c (Proc.devRef .tc main_arg14) := (by show StableHlo.after hostOps1 (W2 m ρ c) (Proc.devRef .tc main_arg14) = _; after_results_simp)
    _ = W1 m ρ c (Proc.devRef .tc main_arg14) := (W2_of_ne m ρ c main_arg14 (by decide))
    _ = W0 m ρ c (Proc.devRef .tc main_arg14) := (by show StableHlo.after hostOps0 (W0 m ρ c) (Proc.devRef .tc main_arg14) = _; after_results_simp)
    _ = m ((c.tc : Thread nD τ).loc main_arg14) := rfl

/-- Argument 15 is as launched at boundary 8: nothing before it writes an argument. -/
theorem arg15_W8 (c : Dev nD) : W8 m ρ c (Proc.devRef .tc main_arg15) = m ((c.tc : Thread nD τ).loc main_arg15) :=
  calc W8 m ρ c (Proc.devRef .tc main_arg15)
    _ = W7 m ρ c (Proc.devRef .tc main_arg15) := (W8_of_ne m ρ c main_arg15 (by decide))
    _ = W6 m ρ c (Proc.devRef .tc main_arg15) := (by show StableHlo.after hostOps3 (W6 m ρ c) (Proc.devRef .tc main_arg15) = _; after_results_simp)
    _ = W5 m ρ c (Proc.devRef .tc main_arg15) := (W6_of_ne m ρ c main_arg15 (by decide))
    _ = W4 m ρ c (Proc.devRef .tc main_arg15) := (by show StableHlo.after hostOps2 (W4 m ρ c) (Proc.devRef .tc main_arg15) = _; after_results_simp)
    _ = W3 m ρ c (Proc.devRef .tc main_arg15) := (W4_of_ne m ρ c main_arg15 (by decide))
    _ = W2 m ρ c (Proc.devRef .tc main_arg15) := (by show StableHlo.after hostOps1 (W2 m ρ c) (Proc.devRef .tc main_arg15) = _; after_results_simp)
    _ = W1 m ρ c (Proc.devRef .tc main_arg15) := (W2_of_ne m ρ c main_arg15 (by decide))
    _ = W0 m ρ c (Proc.devRef .tc main_arg15) := (by show StableHlo.after hostOps0 (W0 m ρ c) (Proc.devRef .tc main_arg15) = _; after_results_simp)
    _ = m ((c.tc : Thread nD τ).loc main_arg15) := rfl

/-- Layer 1's features are untouched by the host operations that follow their pallas_call. -/
theorem feat1_W3 (c : Dev nD) : W3 m ρ c (Proc.devRef .tc main_v15) = W2 m ρ c (Proc.devRef .tc main_v15) :=
  calc W3 m ρ c (Proc.devRef .tc main_v15)
    _ = W2 m ρ c (Proc.devRef .tc main_v15) := (by show StableHlo.after hostOps1 (W2 m ρ c) (Proc.devRef .tc main_v15) = _; after_results_simp)

/-- Layer 2's features are untouched by the host operations that follow their pallas_call. -/
theorem feat2_W5 (c : Dev nD) : W5 m ρ c (Proc.devRef .tc main_v27) = W4 m ρ c (Proc.devRef .tc main_v27) :=
  calc W5 m ρ c (Proc.devRef .tc main_v27)
    _ = W4 m ρ c (Proc.devRef .tc main_v27) := (by show StableHlo.after hostOps2 (W4 m ρ c) (Proc.devRef .tc main_v27) = _; after_results_simp)

/-- Layer 3's features are untouched by the reshape of the graph ids. -/
theorem feat3_W7 (c : Dev nD) : W7 m ρ c (Proc.devRef .tc main_v39) = W6 m ρ c (Proc.devRef .tc main_v39) :=
  calc W7 m ρ c (Proc.devRef .tc main_v39)
    _ = W6 m ρ c (Proc.devRef .tc main_v39) := (by show StableHlo.after hostOps3 (W6 m ρ c) (Proc.devRef .tc main_v39) = _; after_results_simp)

end Cert.KernelIdeal.Fold

end
-- ==== Proof.LibUnitAxis.lean ====
/-
  A vector given a unit axis, two ways. A reshape of [a] to [1, a] and a broadcast of [a] along a new leading unit axis
  both read, at (u, i), the operand at i; a reshape of [a] to [a, 1] and a broadcast of [a] along a new trailing unit
  axis both read, at (i, u), the operand at i. So the reshape and the broadcast are one array.
-/
import Idealize.ShloMosaic.Lib.Pipeline.Value
import Idealize.ShloMosaic.Lib.ValueIdx
import Idealize.ShloMosaic.Lib.ValueLayout

noncomputable section

namespace Cert.LibUnitAxis

open Idealize.ShloMosaic Idealize.ShloMosaic.ValueIdx

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The row form: the reshape of [a] to [1, a] is the broadcast of [a] along a new leading axis. -/
theorem reshape_row_eq_broadcast {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if a = 1 then 0 else i.val
    split
    · have := i.isLt; omega
    · rfl

/-- The column form: the reshape of [a] to [a, 1] is the broadcast of [a] along a new trailing axis. -/
theorem reshape_col_eq_broadcast {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_a_a1_apply]
  refine (broadcastInDim_apply _ h' x (ix2 i u) (ix1 i) fun ax => ?_).symm
  match ax with
  | ⟨0, _⟩ =>
    show i.val = if a = 1 then 0 else i.val
    split
    · have := i.isLt; omega
    · rfl

end Cert.LibUnitAxis

end
-- ==== Proof.KFoldHost.lean ====
/-
  The host operations of the kernel program, stretch by stretch, against the reference's stage functions.
  Both programs normalise the source-node ids, gather the current features' rows at them and scatter-add those rows at
  the destination-node ids; they differ only in spelling where the bias vector is made a row (a reshape against a
  broadcast along a new unit axis: one array) and where the graph ids are made a column (the same). So each stretch's
  neighbour sums are the reference's neighbour-sum stage once the features it gathers are the reference's features, and
  the closing operations (the counts, the quotient by the clamped counts, the two matrix products and biases) are the
  reference's once the pooled sums are.
-/
import proofs.«418541_j1769526526179_1_alg».proof.Proof.Gen.KernelIdeal.Frame
import proofs.«418541_j1769526526179_1_alg».proof.Proof.RefStages
import proofs.«418541_j1769526526179_1_alg».proof.Proof.KFoldBase
import proofs.«418541_j1769526526179_1_alg».proof.Proof.LibUnitAxis
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.ReferenceIdeal.Read

variable (m : (ℓ : Loc nD τ sig) → Buf (Elt Ideal) ℓ) (ρ : Dev nD → PrngReg)

/-- The source-node ids: row 0 of the edge array, flattened. -/
theorem src_W1 (c : Dev nD) : W1 m ρ c (Proc.devRef .tc main_v1) = val_main_v1 (F := Ideal) (m ((c.tc : Thread nD τ).loc main_arg1)) := by
  show StableHlo.after hostOps0 (W0 m ρ c) (Proc.devRef .tc main_v1) = _
  after_results_simp
  rfl

/-- The destination-node ids: row 1 of the edge array, flattened. -/
theorem dst_W1 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results_simp
  rfl

/-- The neighbour sums of the input features. -/
theorem agg1 (c : Dev nD) : W1 m ρ c (Proc.devRef .tc main_v13) = val_main_v13 (F := Ideal) (m ((c.tc : Thread nD τ).loc main_arg0)) (m ((c.tc : Thread nD τ).loc main_arg1)) := by
  show StableHlo.after hostOps0 (W0 m ρ c) (Proc.devRef .tc main_v13) = _
  after_results_simp
  rfl

/-- Layer 1's bias as a row: the reshape is the reference's broadcast along a new leading axis. -/
theorem bias1 (c : Dev nD) : W1 m ρ c (Proc.devRef .tc main_v14) = val_main_v17 (F := Ideal) (m ((c.tc : Thread nD τ).loc main_arg5)) := by
  show StableHlo.after hostOps0 (W0 m ρ c) (Proc.devRef .tc main_v14) = _
  after_results_simp
  exact Cert.LibUnitAxis.reshape_row_eq_broadcast _ _ _

/-- The neighbour sums of layer 1's features, once those are the reference's. -/
theorem agg2 (c : Dev nD) (h : W2 m ρ c (Proc.devRef .tc main_v15) = val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :
    W3 m ρ c (Proc.devRef .tc main_v25) = val_main_v30 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps1 (W2 m ρ c) (Proc.devRef .tc main_v25) = _
  after_results_simp
  rw [h, src_W2 m ρ c, dst_W2 m ρ c, src_W1 m ρ c, dst_W1 m ρ c]
  rfl

/-- Layer 2's bias as a row. -/
theorem bias2 (c : Dev nD) : W3 m ρ c (Proc.devRef .tc main_v26) = val_main_v34 (F := Ideal) (m ((c.tc : Thread nD τ).loc main_arg8)) := by
  show StableHlo.after hostOps1 (W2 m ρ c) (Proc.devRef .tc main_v26) = _
  after_results_simp
  rw [arg8_W2 m ρ c]
  exact Cert.LibUnitAxis.reshape_row_eq_broadcast _ _ _

/-- The neighbour sums of layer 2's features, once those are the reference's. -/
theorem agg3 (c : Dev nD) (h : W4 m ρ c (Proc.devRef .tc main_v27) = val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :
    W5 m ρ c (Proc.devRef .tc main_v37) = val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps2 (W4 m ρ c) (Proc.devRef .tc main_v37) = _
  after_results_simp
  rw [h, src_W4 m ρ c, dst_W4 m ρ c, src_W1 m ρ c, dst_W1 m ρ c]
  rfl

/-- Layer 3's bias as a row. -/
theorem bias3 (c : Dev nD) : W5 m ρ c (Proc.devRef .tc main_v38) = val_main_v51 (F := Ideal) (m ((c.tc : Thread nD τ).loc main_arg11)) := by
  show StableHlo.after hostOps2 (W4 m ρ c) (Proc.devRef .tc main_v38) = _
  after_results_simp
  rw [arg11_W4 m ρ c]
  exact Cert.LibUnitAxis.reshape_row_eq_broadcast _ _ _

/-- The graph ids as a column: the reshape is the reference's broadcast along a new trailing axis. -/
theorem ids (c : Dev nD) : W7 m ρ c (Proc.devRef .tc main_v40) = val_main_v55 (F := Ideal) (m ((c.tc : Thread nD τ).loc main_arg2)) := by
  show StableHlo.after hostOps3 (W6 m ρ c) (Proc.devRef .tc main_v40) = _
  after_results_simp
  rw [arg2_W6 m ρ c]
  exact Cert.LibUnitAxis.reshape_col_eq_broadcast _ _ _

/-- The first result: the closing operations are the reference's, once the pooled sums are. -/
theorem tail0 (c : Dev nD) (h : W8 m ρ c (Proc.devRef .tc main_v41) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    W9 m ρ c (Proc.devRef .tc main_v54) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show StableHlo.after hostOps4 (W8 m ρ c) (Proc.devRef .tc main_v54) = _
  after_results_simp
  rw [h, arg2_W8 m ρ c, arg12_W8 m ρ c, arg13_W8 m ρ c]
  rfl

/-- The second result, likewise. -/
theorem tail1 (c : Dev nD) (h : W8 m ρ c (Proc.devRef .tc main_v41) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    W9 m ρ c (Proc.devRef .tc main_v58) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) := by
  show StableHlo.after hostOps4 (W8 m ρ c) (Proc.devRef .tc main_v58) = _
  after_results_simp
  rw [h, arg2_W8 m ρ c, arg14_W8 m ρ c, arg15_W8 m ρ c]
  rfl

end Cert.KernelIdeal.Fold

end
-- ==== Proof.KFold.lean ====
/-
  The kernel program's buffers at the boundaries of its run, as the reference's own stage functions of the arguments.
  Each pallas_call leaves the specification's layer (or pooled sum) of the arrays it was entered with; those arrays are
  the reference's stages (the neighbour sums, the previous features, the weights, the bias row, the ids column), and the
  reference's own layer (or pooled sum) is the same specification of the same stages. Walking the boundaries in order:
  after call 1 the features are the reference's first rectified layer, after call 2 its second, after call 3 its third,
  after call 4 the pooled sums are the reference's; the closing host operations are the reference's, so the two results
  are the reference's two result stages.
-/
import proofs.«418541_j1769526526179_1_alg».proof.Proof.Gen.KernelIdeal.Frame
import proofs.«418541_j1769526526179_1_alg».proof.Proof.RefStages
import proofs.«418541_j1769526526179_1_alg».proof.Proof.KLayer0
import proofs.«418541_j1769526526179_1_alg».proof.Proof.KLayer1
import proofs.«418541_j1769526526179_1_alg».proof.Proof.KLayer2
import proofs.«418541_j1769526526179_1_alg».proof.Proof.KPool
import proofs.«418541_j1769526526179_1_alg».proof.Proof.RefLayers
import proofs.«418541_j1769526526179_1_alg».proof.Proof.RefPool
import proofs.«418541_j1769526526179_1_alg».proof.Proof.KFoldBase
import proofs.«418541_j1769526526179_1_alg».proof.Proof.KFoldHost

set_option maxRecDepth 16384

noncomputable section

open Idealize.ShloMosaic Idealize.ShloMosaic.TcCoe Idealize.SL.Sem Idealize.ShloMosaic.StableHlo
open Idealize.ShloMosaic.Pipeline (Dat)

namespace Cert.KernelIdeal.Fold

open Cert.KernelIdeal Cert.KernelIdeal.Gen Cert.ReferenceIdeal.Read

variable (m : (ℓ : Loc nD τ sig) → Buf (Elt Ideal) ℓ) (ρ : Dev nD → PrngReg)

/-- After the first pallas_call its result array holds the reference's first rectified layer. -/
theorem v15_eq (c : Dev nD) :
    W2 m ρ c (Proc.devRef .tc main_v15) = val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W2_arr m ρ c 5).trans ?_
  rw [Cert.KernelIdeal.Layer0.final (V1 m ρ) c, Cert.ReferenceIdeal.Stages.layer1]
  dsimp only [V1]
  rw [agg1 m ρ c, arg0_W1 m ρ c, arg3_W1 m ρ c, arg4_W1 m ρ c, bias1 m ρ c]

/-- After the second pallas_call its result array holds the reference's second rectified layer. -/
theorem v27_eq (c : Dev nD) :
    W4 m ρ c (Proc.devRef .tc main_v27) = val_main_v37 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W4_arr m ρ c 5).trans ?_
  rw [Cert.KernelIdeal.Layer1.final (V3 m ρ) c, Cert.ReferenceIdeal.Stages.layer2]
  dsimp only [V3]
  rw [agg2 m ρ c (v15_eq m ρ c), feat1_W3 m ρ c, v15_eq m ρ c, arg6_W3 m ρ c, arg7_W3 m ρ c, bias2 m ρ c]

/-- After the third pallas_call its result array holds the reference's third layer. -/
theorem v39_eq (c : Dev nD) :
    W6 m ρ c (Proc.devRef .tc main_v39) = val_main_v53 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W6_arr m ρ c 5).trans ?_
  rw [Cert.KernelIdeal.Layer2.final (V5 m ρ) c, Cert.ReferenceIdeal.Stages.layer3]
  dsimp only [V5]
  rw [agg3 m ρ c (v27_eq m ρ c), feat2_W5 m ρ c, v27_eq m ρ c, arg9_W5 m ρ c, arg10_W5 m ρ c, bias3 m ρ c]

/-- After the pooling pallas_call its result array holds the reference's per-graph sums. -/
theorem v41_eq (c : Dev nD) :
    W8 m ρ c (Proc.devRef .tc main_v41) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W8_arr m ρ c 2).trans ?_
  rw [Cert.KernelIdeal.Pool.final (V7 m ρ) c, Cert.ReferenceIdeal.Stages.pooled]
  dsimp only [V7]
  rw [feat3_W7 m ρ c, v39_eq m ρ c, ids m ρ c]

/-- The first result after the run is the reference's first result stage of the arguments. -/
theorem res0_eq (c : Dev nD) :
    W9 m ρ c (Proc.devRef .tc main_v54) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  tail0 m ρ c (v41_eq m ρ c)

/-- The second result after the run is the reference's second result stage of the arguments. -/
theorem res1_eq (c : Dev nD) :
    W9 m ρ c (Proc.devRef .tc main_v58) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) :=
  tail1 m ρ c (v41_eq m ρ c)

end Cert.KernelIdeal.Fold

end
-- ==== Proof.lean ====
/-
  A three-layer graph network with mean pooling and two linear heads, computed two ways.
  The kernel program runs each layer's dense part (two matrix products, a bias, a rectifier on the first two layers) as a
  pipeline over ten blocks of 5000 nodes and the per-graph sums as a one-hot matrix product accumulated over the same ten
  blocks; the reference runs the same layers as whole-array matrix products and the per-graph sums as a scatter-add. The
  neighbour sums before each layer and the closing quotient by the clamped counts and the two heads are the same host
  operations in both programs.

  At the ideal instance a change of float format is the identity, a product with one is its factor and a product with zero
  is zero, and a sum does not depend on how it is blocked: so every boundary of the kernel program's run holds the
  reference's own stage of the arguments (Proof/KFold.lean over Proof/KLayer0–2.lean, Proof/KPool.lean and
  Proof/RefLayers.lean), and the two results are the reference's two results. No step uses that the inputs are finite.
  The idealization rewrote no operation, so that conjunct is trivial; the frames are the generated ones, the reference's
  being its generated run with the results dropped.
-/
import proofs.«418541_j1769526526179_1_alg».proof.Defs
import proofs.«418541_j1769526526179_1_alg».proof.Proof.Gen.Kernel
import proofs.«418541_j1769526526179_1_alg».proof.Proof.Gen.Kernel.Skeleton
import proofs.«418541_j1769526526179_1_alg».proof.Proof.Gen.Kernel.Launch
import proofs.«418541_j1769526526179_1_alg».proof.Proof.Gen.Kernel.Points
import proofs.«418541_j1769526526179_1_alg».proof.Proof.Gen.Kernel.Frame
import proofs.«418541_j1769526526179_1_alg».proof.Proof.Gen.KernelIdeal
import proofs.«418541_j1769526526179_1_alg».proof.Proof.Gen.KernelIdeal.Skeleton
import proofs.«418541_j1769526526179_1_alg».proof.Proof.Gen.KernelIdeal.Launch
import proofs.«418541_j1769526526179_1_alg».proof.Proof.Gen.KernelIdeal.Points
import proofs.«418541_j1769526526179_1_alg».proof.Proof.Gen.KernelIdeal.Frame
import proofs.«418541_j1769526526179_1_alg».proof.Proof.Gen.ReferenceIdeal
import proofs.«418541_j1769526526179_1_alg».proof.Proof.Gen.ReferenceIdeal.Run
import proofs.«418541_j1769526526179_1_alg».proof.Proof.Gen.ReferenceIdeal.Read
import proofs.«418541_j1769526526179_1_alg».proof.Proof.Gen.Pre_finite_inputs
import proofs.«418541_j1769526526179_1_alg».proof.Proof.KRun
import proofs.«418541_j1769526526179_1_alg».proof.Proof.KFold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its generated run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel program ends with each result at the reference's result stage of ITS arguments: the launch with the
    results named, then the boundaries' values. -/
theorem kernel_results (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v54) = Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v58) = Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run Cert.KernelIdeal.defs _ _).mono
    (fun _ h c => ⟨(h c).1.trans (Cert.KernelIdeal.Fold.res0_eq m ρ c), (h c).2.1.trans (Cert.KernelIdeal.Fold.res1_eq m ρ c), (h c).2.2⟩)
    (Cert.KernelIdeal.Gen.run_results (F := Ideal) m ρ)

/-- The reference ends with each result at its result stage of its arguments: its generated run, the composed term
    named by the stage. -/
theorem reference_results (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v69) = Cert.ReferenceIdeal.Read.val_main_v69 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v73) = Cert.ReferenceIdeal.Read.val_main_v73 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run Cert.ReferenceIdeal.defs _ _).mono
    (fun _ h c => ⟨(h c).1.trans (Cert.ReferenceIdeal.Read.val_main_v69_eq m' c), (h c).2.1.trans (Cert.ReferenceIdeal.Read.val_main_v73_eq m' c), (h c).2.2⟩)
    (Cert.ReferenceIdeal.Value.run (F := Ideal) m' ρ')

/-- Both programs end with each result at the reference's result stage of the (agreeing) arguments. -/
theorem algebraic : Cert.algebraic_KernelIdeal_ReferenceIdeal := by
  intro m ρ m' ρ' _ hagree
  refine ⟨_, _, kernel_results m ρ, ?_⟩
  refine (θ_run Cert.ReferenceIdeal.defs _ _).mono (fun _ h c => ?_) (reference_results m' ρ')
  obtain ⟨e0, e1, e2, e3, e4, e5, e6, e7, e8, e9, e10, e11, e12, e13, e14, e15⟩ := hagree c
  obtain ⟨h0, h1, hrest⟩ := h c
  rw [e0, e1, e2, e3, e4, e5, e6, e7, e8, e9, e10, e11, e12, e13] at h0
  rw [e0, e1, e2, e3, e4, e5, e6, e7, e8, e9, e10, e11, e14, e15] at h1
  exact ⟨h0, h1, hrest⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
